-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x2048x1024 .f32) (main_arg1 : FVec F S1024x128 .f32) (main_arg2 : FVec F S1024x128 .f32) (main_arg3 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S8x2048x1024 : Shape := ⟨3, ![8, 2048, 1024]⟩
abbrev S1024x128 : Shape := ⟨2, ![1024, 128]⟩
abbrev S8x2048x128 : Shape := ⟨3, ![8, 2048, 128]⟩
abbrev S1x2048x1024 : Shape := ⟨3, ![1, 2048, 1024]⟩
abbrev S1x1024x128 : Shape := ⟨3, ![1, 1024, 128]⟩
abbrev S2048x128 : Shape := ⟨2, ![2048, 128]⟩
abbrev S2048x1024 : Shape := ⟨2, ![2048, 1024]⟩
abbrev S1x1024x1024 : Shape := ⟨3, ![1, 1024, 1024]⟩
abbrev S1024x1024 : Shape := ⟨2, ![1024, 1024]⟩
abbrev S1024x1 : Shape := ⟨2, ![1024, 1]⟩
abbrev S128x1024 : Shape := ⟨2, ![128, 1024]⟩
abbrev S1x1024 : Shape := ⟨2, ![1, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1x1024x128, .f32⟩
  | .local _ .vmem, ⟨6, _⟩ => ⟨S1x1024x128, .f32⟩
  | .local _ .vmem, ⟨7, _⟩ => ⟨S2048x128, .bf16⟩
  | .local _ .vmem, ⟨8, _⟩ => ⟨S2048x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S1x1024x1024 : 0 < S1x1024x1024.numel
  shapeCasts_S1x1024x1024_S1024x1024 : S1x1024x1024.ShapeCasts S1024x1024
  iota_S1024x1_d0_w32 : S1024x1.Iotas .tc 32 [0]
  inb_S2048x128_S1024x128_0_0 : ∀ a, (![0, 0] : Fin 2 → Nat) a + S1024x128.size a ≤ S2048x128.size a
  transposes_S1024x128_p1_0_S128x1024 : S1024x128.Transposes [1, 0] S128x1024
  iota_S1x1024_d1_w32 : S1x1024.Iotas .tc 32 [1]
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  broadcasts_S1024x1_S1024x128 : S1024x1.Broadcasts S1024x128
  inb_S2048x128_S1024x128_1024_0 : ∀ a, (![1024, 0] : Fin 2 → Nat) a + S1024x128.size a ≤ S2048x128.size a
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S2048x1024_S1024x128_S2048x128_1_0_0_1_n_n_wf : DotDims.WF S2048x1024 S1024x128 S2048x128 [1] [0] [0] [1] [] []
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S8x2048x128.size a
  hwx0_4 : ∀ i : grid0.Coords, EltTy.bits .f32 = 32 ∨ (Rect.block (s := S8x2048x128) S1x1024x128.size (cc0_transform_4 i) (hinb0_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Body.lean ====
/-
  The value the kernel's body stores into its output block, as one function of the values it loads.
-/
import proofs.«427894_j58394375356490_3_alg».proof.Proof.Gen.KernelIdeal.Skeleton

noncomputable section

namespace Cert.KernelIdeal.BodyValue

open Cert.KernelIdeal Cert.KernelIdeal.Gen Idealize.ShloMosaic

variable {F : FTy → Type} [FloatOps F] [Named F]

/-- The value the body stores into the output block, as one function of what it loads: the query rows `v6` of
    `x`, the query weights `v9`, and the two halves of the projected keys (`v20`, `v51`) and values (`v21`, `v52`). -/
def body (i : grid0.Coords) (v6 : Vec F S1x1024x1024 .f32) (v9 : Vec F S1024x128 .f32)
    (v20 v21 v51 v52 : Vec F S1024x128 .bf16) : FVec F S1x1024x128 .f32 :=
  k0_pay1
    (k0_pay19 (k0_pay5 v6 v9) (k0_pay6 (F := F)) (k0_pay7 (F := F)) (k0_pay9 i) (k0_pay10 i v6 v9 v20) (k0_pay11 i v6 v9 v20) v51)
    (k0_pay20 (k0_pay5 v6 v9) (k0_pay6 (F := F)) (k0_pay8 (F := F)) (k0_pay9 i) v21 (k0_pay10 i v6 v9 v20) (k0_pay11 i v6 v9 v20) v51 v52)
    (Scalar.ofBits .f32 0x3F800000#32)

end Cert.KernelIdeal.BodyValue

end
-- ==== Proof.Pieces.lean ====
/-
  What one run of the kernel's body leaves behind, as values of what it found.

  At a first query tile the body projects the batch's keys and values into its two scratch arrays and then reads
  them back; at a second it reads what the first left. In both it stores one block: `body` of the query rows of
  `x`, the query weights and the four half-arrays of keys and values. The loads that are not of a whole array
  stay as loads through their rectangles (`View.ld`): rows `[1024·qi, 1024·qi + 1024)` of `x`, rows `[0, 1024)` and
  `[1024, 2048)` of each scratch.
-/
import proofs.«427894_j58394375356490_3_alg».proof.Proof.Body
import proofs.«427894_j58394375356490_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.BodyValue

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- The query rows of a batch's `x` block at a point. -/
abbrev qrows (i : grid0.Coords) (x0 : Vec F S1x2048x1024 .f32) : Vec F S1x1024x1024 .f32 :=
  View.ld x0 (Rect.unit (s := S1x2048x1024) (k0_off1 i) S1x1024x1024.size (Facts₀.k0_off1_inb i))
/-- The first and the second half of a scratch array's rows. -/
abbrev half0 (xs : Vec F S2048x128 .bf16) : Vec F S1024x128 .bf16 :=
  View.ld xs (Rect.unit (s := S2048x128) ![0, 0] S1024x128.size Facts₀.inb_S2048x128_S1024x128_0_0)
abbrev half1 (xs : Vec F S2048x128 .bf16) : Vec F S1024x128 .bf16 :=
  View.ld xs (Rect.unit (s := S2048x128) ![1024, 0] S1024x128.size Facts₀.inb_S2048x128_S1024x128_1024_0)

/-- A load through any rectangle of what one whole-array store left reads the stored value there. -/
theorem readCov_whole {sig' : RefSig} {κ : Kind} {sp : Space} (v : View sig' κ sp S2048x128 .bf16)
    (w : S2048x128.Idx → Elt F .bf16) (r : Rect S2048x128) :
    v.readCov [(⟨Rect.unit (s := S2048x128) ![0, 0] S2048x128.size Facts₀.inb_S2048x128_S2048x128_0_0, w⟩ : View.Piece (Elt F) S2048x128 .bf16)] r.toLoadRect
      = View.ld w r := by
  rw [View.readCov_eq_canon_ld _ _ _ (fun y => ⟨_, List.mem_singleton_self _, View.mem_set_unit_zero hz2 Facts₀.inb_S2048x128_S2048x128_0_0 y⟩),
    View.canon_unit_zero hz2]

/-- A point that does not project: the block it stores is `body` of the query rows, the query weights and the halves
    of the scratch arrays as the point before left them. -/
theorem out_B (c : Dev nD) (i : grid0.Coords) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x128 .f32) (harg6 : arg6.IsWhole) (arg7 : Memref sig .tc .vmem S2048x128 .bf16) (harg7 : arg7.IsWhole) (arg8 : Memref sig .tc .vmem S2048x128 .bf16) (harg8 : arg8.IsWhole) (hc0 : ¬cond0_0 i)
    (x0 : Vec F S1x2048x1024 .f32) (x1 : Vec F S1024x128 .f32) (x2 : Vec F S1024x128 .f32) (x3 : Vec F S1024x128 .f32) (xs0 : Vec F S2048x128 .bf16) (xs1 : Vec F S2048x128 .bf16) :
    out0_B_4 c i arg2 harg2 arg3 harg3 arg4 harg4 arg5 harg5 arg6 harg6 arg7 harg7 arg8 harg8 hc0 x0 x1 x2 x3 xs0 xs1
      = body i (qrows i x0) x1 (half0 xs0) (half0 xs1) (half1 xs0) (half1 xs1) := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero hz3]
  simp only [View.readAt_eq_ld, harg2.read_unread, harg3.read_unread, harg7.read_unread, harg8.read_unread,
    View.ld_unit_zero (S := S1024x128) hz2]
  rfl

/-- A point that projects leaves the projected keys in the first scratch array, -/
theorem sout_A_0 (c : Dev nD) (i : grid0.Coords) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x128 .f32) (harg6 : arg6.IsWhole) (arg7 : Memref sig .tc .vmem S2048x128 .bf16) (harg7 : arg7.IsWhole) (arg8 : Memref sig .tc .vmem S2048x128 .bf16) (harg8 : arg8.IsWhole) (hc0 : cond0_0 i)
    (x0 : Vec F S1x2048x1024 .f32) (x1 : Vec F S1024x128 .f32) (x2 : Vec F S1024x128 .f32) (x3 : Vec F S1024x128 .f32) :
    sout0_A_0 c i arg2 harg2 arg3 harg3 arg4 harg4 arg5 harg5 arg6 harg6 arg7 harg7 arg8 harg8 hc0 x0 x1 x2 x3 = k0_pay3 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg4.read_unread, View.ld_unit_zero (S := S1024x128) hz2,
    View.ld_unit_zero (S := S1x2048x1024) hz3]

/-- the projected values in the second, -/
theorem sout_A_1 (c : Dev nD) (i : grid0.Coords) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x128 .f32) (harg6 : arg6.IsWhole) (arg7 : Memref sig .tc .vmem S2048x128 .bf16) (harg7 : arg7.IsWhole) (arg8 : Memref sig .tc .vmem S2048x128 .bf16) (harg8 : arg8.IsWhole) (hc0 : cond0_0 i)
    (x0 : Vec F S1x2048x1024 .f32) (x1 : Vec F S1024x128 .f32) (x2 : Vec F S1024x128 .f32) (x3 : Vec F S1024x128 .f32) :
    sout0_A_1 c i arg2 harg2 arg3 harg3 arg4 harg4 arg5 harg5 arg6 harg6 arg7 harg7 arg8 harg8 hc0 x0 x1 x2 x3 = k0_pay4 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread, View.ld_unit_zero (S := S1024x128) hz2,
    View.ld_unit_zero (S := S1x2048x1024) hz3]

/-- and stores `body` of the query rows, the query weights and the halves of what it has just projected. -/
theorem out_A (c : Dev nD) (i : grid0.Coords) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x128 .f32) (harg6 : arg6.IsWhole) (arg7 : Memref sig .tc .vmem S2048x128 .bf16) (harg7 : arg7.IsWhole) (arg8 : Memref sig .tc .vmem S2048x128 .bf16) (harg8 : arg8.IsWhole) (hc0 : cond0_0 i)
    (x0 : Vec F S1x2048x1024 .f32) (x1 : Vec F S1024x128 .f32) (x2 : Vec F S1024x128 .f32) (x3 : Vec F S1024x128 .f32) :
    out0_A_4 c i arg2 harg2 arg3 harg3 arg4 harg4 arg5 harg5 arg6 harg6 arg7 harg7 arg8 harg8 hc0 x0 x1 x2 x3
      = body i (qrows i x0) x1 (half0 (k0_pay3 x0 x2)) (half0 (k0_pay4 x0 x3)) (half1 (k0_pay3 x0 x2)) (half1 (k0_pay4 x0 x3)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [readCov_whole (F := F)]
  simp only [View.readAt_eq_ld, harg2.read_unread, harg3.read_unread, harg4.read_unread, harg5.read_unread,
    View.ld_unit_zero (S := S1024x128) hz2, View.ld_unit_zero (S := S1x2048x1024) hz3]
  rfl

end Cert.KernelIdeal.Pieces

end
-- ==== Proof.Spec.lean ====
/-
  Causal single-head attention, one output entry at a time, on the extended reals.

  For a batch `b`, a query position `t` and an output column `h` the result is the average of the value rows
  `v[b, s, h]` over the key positions `s ≤ t`, weighted by `exp (score t s - M)` for any common shift `M`; the
  reference takes `M` to be the row's largest score and divides each weight by the row's total before it
  sums, the kernel walks the keys in two halves, rescales what it has by `exp (M₀ - M₁)` when the running
  maximum moves and divides once at the end. `refRow` and `kerRow` are those two computations over an abstract
  set of keys; `proj`, `qk` and `mscore` are the projections and the masked, scaled scores they are applied to.
-/
import Idealize.ShloMosaic.PureOps.Ideal
import Idealize.ShloMosaic.Lib.ValueIdx

noncomputable section

open scoped BigOperators

namespace Cert.Attn

open Idealize.ShloMosaic Idealize.ShloMosaic.ValueIdx

/-- The reference's row: the scores shifted by their maximum (taken from `⊥`), exponentiated, each divided by
    the row's total (summed from `0`), then the weighted sum of the values. -/
def refRow {ι : Type} [Fintype ι] (S V : ι → EReal) : EReal :=
  ∑ j, Ideal.div (Ideal.exp (S j - max ⊥ (Finset.univ.fold max ⊥ S)))
      (0 + ∑ j', Ideal.exp (S j' - max ⊥ (Finset.univ.fold max ⊥ S))) * V j

/-- The kernel's row over two halves of the keys: running maximum `m`, running total `l` and running weighted
    sum `acc`, from `⊥`, `0` and `0`; each half rescales the totals by `exp (m_old - m_new)`; one division at
    the end. -/
def kerRow {ι : Type} [Fintype ι] (S0 S1 V0 V1 : ι → EReal) : EReal :=
  let m0 := max ⊥ (Finset.univ.fold max ⊥ S0)
  let a0 := Ideal.exp (⊥ - m0)
  let l0 := a0 * 0 + ∑ j, Ideal.exp (S0 j - m0)
  let acc0 := a0 * 0 + ∑ j, Ideal.exp (S0 j - m0) * V0 j
  let m1 := max m0 (Finset.univ.fold max ⊥ S1)
  let a1 := Ideal.exp (m0 - m1)
  let l1 := a1 * l0 + ∑ j, Ideal.exp (S1 j - m1)
  let acc1 := a1 * acc0 + ∑ j, Ideal.exp (S1 j - m1) * V1 j
  acc1 * Ideal.div 1 l1

/-- Row `(b, t)` of `x` against column `h` of a weight matrix. -/
def proj (x : (⟨3, ![8, 2048, 1024]⟩ : Shape).Idx → EReal) (w : (⟨2, ![1024, 128]⟩ : Shape).Idx → EReal)
    (b : Fin 8) (t : Fin 2048) (h : Fin 128) : EReal :=
  ∑ d : Fin 1024, x (ix3 b t d) * w (ix2 d h)

/-- The query at `t` against the key at `s`. -/
def qk (x : (⟨3, ![8, 2048, 1024]⟩ : Shape).Idx → EReal) (wq wk : (⟨2, ![1024, 128]⟩ : Shape).Idx → EReal)
    (b : Fin 8) (t s : Fin 2048) : EReal :=
  ∑ e : Fin 128, proj x wq b t e * proj x wk b s e

/-- The scale both programs multiply the scores by: the same f32 word on both sides. -/
def scale : EReal := Ideal.ofBits .f32 0x3DB504F3#32

/-- The scaled score where the key is not after the query, `⊥` elsewhere. -/
def mscore (x : (⟨3, ![8, 2048, 1024]⟩ : Shape).Idx → EReal) (wq wk : (⟨2, ![1024, 128]⟩ : Shape).Idx → EReal)
    (b : Fin 8) (t s : Fin 2048) : EReal :=
  if s.val ≤ t.val then qk x wq wk b t s * scale else ⊥

/-- The whole result: entry `(b, t, h)` is the reference's row of the masked scores against column `h` of the
    projected values. -/
def attn (x : (⟨3, ![8, 2048, 1024]⟩ : Shape).Idx → EReal) (wq wk wv : (⟨2, ![1024, 128]⟩ : Shape).Idx → EReal) :
    (⟨3, ![8, 2048, 128]⟩ : Shape).Idx → EReal :=
  fun i => refRow (fun s : Fin 2048 => mscore x wq wk (i 0) (i 1) s) (fun s : Fin 2048 => proj x wv (i 0) s (i 2))

end Cert.Attn

end
-- ==== Proof.BodyRead.lean ====
/-
  What the kernel's body stores, read at an index of the block, at the ideal instance.
-/
import proofs.«427894_j58394375356490_3_alg».proof.Proof.Spec
import proofs.«427894_j58394375356490_3_alg».proof.Proof.Gen.KernelIdeal.Skeleton
import proofs.«427894_j58394375356490_3_alg».proof.Proof.Body
import Idealize.ShloMosaic.PureOps.Ideal.Laws
import Idealize.ShloMosaic.PureOps.IdealRules
import Idealize.ShloMosaic.Lib.ValueLayout
import Idealize.ShloMosaic.Lib.StableHlo.Predicate

noncomputable section

open scoped BigOperators

namespace Cert.KernelIdeal.BodyValue

open Cert.KernelIdeal Cert.KernelIdeal.Gen Idealize.ShloMosaic Idealize.ShloMosaic.ValueIdx Cert.Attn

variable {F : FTy → Type} [FloatOps F] [Named F]

/-! ## Layout operations at coordinates: the keepdims column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three contractions at coordinates -/

theorem lhs_proj_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_proj_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_proj_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_proj_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product of a `[2048, 1024]` by a `[1024, 128]` matrix into zero, at `(p, q)`: the sum over the shared axis. -/
theorem matmul_proj_apply {φ₁ φ₂ : FTy} (l : FVec Ideal S2048x1024 φ₁) (r : FVec Ideal S1024x128 φ₂) (p : Fin 2048) (q : Fin 128) :
    matmul dot_S2048x1024_S1024x128_S2048x128_1_0_0_1_n_n none l r (constant (F := Ideal) S2048x128 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

theorem lhs_row_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_row_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_row_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_row_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a `[1024, 1024]` by a `[1024, 128]` matrix into zero, at `(p, q)`: the sum over the shared axis. -/
theorem matmul_row_apply {φ₁ φ₂ : FTy} (l : FVec Ideal S1024x1024 φ₁) (r : FVec Ideal S1024x128 φ₂) (p : Fin 1024) (q : Fin 128) :
    matmul dot_S1024x1024_S1024x128_S1024x128_1_0_0_1_n_n none l r (constant (F := Ideal) S1024x128 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhs_row_0 _ _
    | ⟨1, _⟩ => exact (lhs_row_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhs_row_0 _ _).trans hk
    | ⟨1, _⟩ => exact rhs_row_1 _ _)
  rw [el, er]

theorem lhs_qk_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_qk_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_qk_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_qk_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a `[1024, 128]` by a `[128, 1024]` matrix into zero, at `(p, q)`: the sum over the shared axis. -/
theorem matmul_qk_apply {φ₁ φ₂ : FTy} (l : FVec Ideal S1024x128 φ₁) (r : FVec Ideal S128x1024 φ₂) (p : Fin 1024) (q : Fin 1024) :
    matmul dot_S1024x128_S128x1024_S1024x1024_1_0_0_1_n_n none l r (constant (F := Ideal) S1024x1024 .f32 0x00000000#32) (ix2 p q)
      = ∑ k : Fin 128, l (ix2 p k) * r (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact lhs_qk_0 _ _
    | ⟨1, _⟩ => exact (lhs_qk_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (rhs_qk_0 _ _).trans hk
    | ⟨1, _⟩ => exact rhs_qk_1 _ _)
  rw [el, er]

/-! ## The row reductions at coordinates -/

/-- Row `r` with column `k` put back. -/
theorem lift_row (r : Fin 1024) (k : Fin 1024) :
    reduces_S1024x1024_S1024.lift (ix1 r) k = ix2 r k := by
  funext c
  match c with
  | ⟨0, _⟩ => exact Fin.ext rfl
  | ⟨1, _⟩ => exact Fin.ext rfl

/-- The sum over the columns, at row `r`. -/
theorem rowSum_apply (src : FVec Ideal S1024x1024 .f32) (hφ : FKind.Formats .f32)
    (hacc : (0x00000000#32 : BitVec 32) = 0x00000000#32) (r : Fin 1024) :
    multiReduction (F := Ideal) .add [1] S1024 src 0x00000000#32 reduces_S1024x1024_S1024 hφ hacc (ix1 r)
      = ∑ k : Fin 1024, src (ix2 r k) :=
  (Ideal.multiReduction_add_single src _ reduces_S1024x1024_S1024 hφ hacc (ix1 r)).trans
    (Finset.sum_congr rfl fun k _ => congrArg src (lift_row r k))

theorem ofBits_negInf : Ideal.ofBits .f32 0xFF800000#32 = ⊥ := by simp [Ideal.ofBits, Ideal.ieee]

theorem ofBits_one : Ideal.ofBits .f32 0x3F800000#32 = 1 := by simp [Ideal.ofBits, Ideal.ieee, -EReal.coe_mul]; norm_num

/-- The maximum over the columns, from `⊥`, at row `r`. -/
theorem rowMax_apply (src : FVec Ideal S1024x1024 .f32) (hφ : FKind.Formats .f32)
    (hacc : (0xFF800000#32 : BitVec 32) = 0xFF800000#32) (r : Fin 1024) :
    multiReduction (F := Ideal) .maximumf [1] S1024 src 0xFF800000#32 reduces_S1024x1024_S1024 hφ hacc (ix1 r)
      = (Finset.univ : Finset (Fin 1024)).fold max ⊥ (fun k => src (ix2 r k)) := by
  refine (Ideal.multiReduction_maximumf_single src _ reduces_S1024x1024_S1024 hφ hacc (ix1 r)).trans ?_
  have e : (src ∘ reduces_S1024x1024_S1024.lift (ix1 r)) = fun k : Fin 1024 => src (ix2 r k) :=
    funext fun k => congrArg src (lift_row r k)
  rw [e]
  show Finset.fold max (Ideal.ofBits .f32 0xFF800000#32) _ _ = _
  rw [ofBits_negInf]
  rfl

theorem neg_big : Named.named (F := Ideal) κ "neg_big" (φ := .f32) 0xFF333332#32 = ⊥ :=
  IdealRules.named_const.ideal_named_scalar _ _ _ _ rfl

/-! ## The causal mask's words -/

/-- The query positions of the block's rows: row `r` of grid step `i` is position `1024 · i 1 + r`. -/
theorem pay9_toNat (i : grid0.Coords) (r : Fin 1024) (u : Fin 1) :
    (k0_pay9 i (ix2 r u)).toNat = (i 1).val * 1024 + r.val := by
  have hi : (i 1).val < 2 := (i 1).isLt
  have hr := r.isLt
  show (IntOp.addi (Scalar.muli (BitVec.ofNat 32 (i 1).val) 1024#32) (BitVec.ofNat 32 (0 * 1024 + r.val))).toNat = _
  simp only [IntOp.addi, Scalar.muli, IntOp.muli, BitVec.toNat_add, BitVec.toNat_mul, BitVec.toNat_ofNat]
  omega

/-- A key position `c + j` is compared with a query position `w` as signed words; both are small, so the words
    compare as the numbers. -/
theorem mask_word (c w : BitVec 32) (j : Fin 1024) (hc : c.toNat ≤ 1024) (hw : w.toNat < 4096) :
    IntOp.cmpi .sle (IntOp.addi c (BitVec.ofNat 32 (0 * 1024 + j.val))) w = 1#1 ↔ c.toNat + j.val ≤ w.toNat := by
  have hj := j.isLt
  have e : (IntOp.addi c (BitVec.ofNat 32 (0 * 1024 + j.val))).toNat = c.toNat + j.val := by
    simp only [IntOp.addi, BitVec.toNat_add, BitVec.toNat_ofNat]; omega
  rw [StableHlo.Predicate.sle_iff_toNat (by omega) (by omega), e]

/-- One half's scores: the queries against the keys' rows, scaled, and `⊥` where the key's position `c + j` is after the
    query's `t`. -/
theorem scoreHalf_apply (c : BitVec 32) (v12 : FVec Ideal S1024x128 .bf16) (v19 : IVec S1024x1 32) (vk : FVec Ideal S1024x128 .bf16)
    (r j : Fin 1024) (t : ℕ) (hc : c.toNat ≤ 1024) (ht : (v19 (ix2 r (0 : Fin 1))).toNat = t) (ht' : t < 4096) :
    select (cmpi .sle (broadcastTo S1024x1024 (addi (broadcast S1x1024 c) (iota .tc S1x1024 32 [1] iota_S1x1024_d1_w32)) broadcasts_S1x1024_S1024x1024)
        (broadcastTo S1024x1024 v19 broadcasts_S1024x1_S1024x1024))
      (mulf (matmul dot_S1024x128_S128x1024_S1024x1024_1_0_0_1_n_n none v12 (transpose S128x1024 [1, 0] vk transposes_S1024x128_p1_0_S128x1024)
          (constant (F := Ideal) S1024x1024 .f32 0x00000000#32)) (broadcast S1024x1024 (Scalar.ofBits .f32 0x3DB504F3#32)))
      (broadcast S1024x1024 (Named.named (F := Ideal) κ "neg_big" (φ := .f32) 0xFF333332#32)) (ix2 r j)
    = if c.toNat + j.val ≤ t then (∑ e : Fin 128, v12 (ix2 r e) * vk (ix2 j e)) * scale else ⊥ := by
  rw [select_apply, mulf_apply, broadcast_apply, broadcast_apply, matmul_qk_apply, neg_big]
  have hm : cmpi .sle (broadcastTo S1024x1024 (addi (broadcast S1x1024 c) (iota .tc S1x1024 32 [1] iota_S1x1024_d1_w32)) broadcasts_S1x1024_S1024x1024)
      (broadcastTo S1024x1024 v19 broadcasts_S1024x1_S1024x1024) (ix2 r j)
      = IntOp.cmpi .sle (IntOp.addi c (BitVec.ofNat 32 (0 * 1024 + j.val))) (v19 (ix2 r (0 : Fin 1))) := by
    show IntOp.cmpi .sle (broadcastTo S1024x1024 _ broadcasts_S1x1024_S1024x1024 (ix2 r j)) (broadcastTo S1024x1024 v19 broadcasts_S1024x1_S1024x1024 (ix2 r j)) = _
    rw [broadcastTo_1b_ab_apply, broadcastTo_a1_ab_apply]
    rfl
  have hs : ∀ e : Fin 128, transpose S128x1024 [1, 0] vk transposes_S1024x128_p1_0_S128x1024 (ix2 e j) = vk (ix2 j e) :=
    fun e => transpose_ix2_apply vk _ e j
  simp only [hs]
  have hw : (v19 (ix2 r (0 : Fin 1))).toNat < 4096 := by omega
  have hiff := mask_word c (v19 (ix2 r (0 : Fin 1))) j hc hw
  by_cases h : c.toNat + j.val ≤ t
  · rw [if_pos h, hm, hiff.mpr (by omega), select_one]; rfl
  · have hz : IntOp.cmpi .sle (IntOp.addi c (BitVec.ofNat 32 (0 * 1024 + j.val))) (v19 (ix2 r (0 : Fin 1))) = 0#1 :=
      eq_zero_of_ne_one fun h1 => h (by have := hiff.mp h1; omega)
    rw [if_neg h, hm, hz, select_zero]

/-! ## The payloads at coordinates -/

/-- The query projection: row `r` of the loaded rows of `x` against column `e` of the query weights. -/
theorem pay5_apply (v6 : Vec Ideal S1x1024x1024 .f32) (v9 : Vec Ideal S1024x128 .f32) (r : Fin 1024) (e : Fin 128) :
    k0_pay5 (F := Ideal) v6 v9 (ix2 r e) = ∑ d : Fin 1024, v6 (ix3 (0 : Fin 1) r d) * v9 (ix2 d e) := by
  unfold k0_pay5
  simp only [truncf_apply, matmul_row_apply, shapeCast_1ab_ab_apply]

/-- The first half's scores at `(r, j)`. -/
theorem pay10_apply (i : grid0.Coords) (v6 : Vec Ideal S1x1024x1024 .f32) (v9 : Vec Ideal S1024x128 .f32)
    (v20 : Vec Ideal S1024x128 .bf16) (r j : Fin 1024) :
    k0_pay10 (F := Ideal) i v6 v9 v20 (ix2 r j) =
      if j.val ≤ (i 1).val * 1024 + r.val then
        (∑ e : Fin 128, (∑ d : Fin 1024, v6 (ix3 (0 : Fin 1) r d) * v9 (ix2 d e)) * v20 (ix2 j e)) * scale else ⊥ := by
  have hi : (i 1).val < 2 := (i 1).isLt
  have hr := r.isLt
  have h := scoreHalf_apply 0#32 (k0_pay5 (F := Ideal) v6 v9) (k0_pay9 i) v20 r j _ (by decide) (pay9_toNat i r 0) (by omega)
  simp only [pay5_apply] at h
  rw [show (0#32 : BitVec 32).toNat = 0 from rfl, Nat.zero_add] at h
  exact h

/-- The second half's scores at `(r, j)`, for query rows `v12` at positions `v19`. -/
theorem pay15_apply (v12 : FVec Ideal S1024x128 .bf16) (v19 : IVec S1024x1 32) (v51 : Vec Ideal S1024x128 .bf16) (r j : Fin 1024)
    (t : ℕ) (ht : (v19 (ix2 r (0 : Fin 1))).toNat = t) (ht' : t < 4096) :
    k0_pay15 (F := Ideal) v12 v19 v51 (ix2 r j) =
      if 1024 + j.val ≤ t then (∑ e : Fin 128, v12 (ix2 r e) * v51 (ix2 j e)) * scale else ⊥ :=
  scoreHalf_apply 1024#32 v12 v19 v51 r j t (by decide) ht ht'

/-- The first half's row maximum, kept as a column. -/
theorem pay11_apply (i : grid0.Coords) (v6 : Vec Ideal S1x1024x1024 .f32) (v9 : Vec Ideal S1024x128 .f32)
    (v20 : Vec Ideal S1024x128 .bf16) (r : Fin 1024) (u : Fin 1) :
    k0_pay11 (F := Ideal) i v6 v9 v20 (ix2 r u)
      = (Finset.univ : Finset (Fin 1024)).fold max ⊥ (fun j => k0_pay10 (F := Ideal) i v6 v9 v20 (ix2 r j)) := by
  unfold k0_pay11
  exact (shapeCast_a_a1_apply _ _ r u).trans (rowMax_apply _ _ _ r)

section Rows
variable (v12 : FVec Ideal S1024x128 .bf16) (v13 v14 v35 : FVec Ideal S1024x1 .f32) (v15 : FVec Ideal S1024x128 .f32)
  (v19 : IVec S1024x1 32) (v21 v51 v52 : FVec Ideal S1024x128 .bf16) (v33 : FVec Ideal S1024x1024 .f32) (r : Fin 1024)

/-- The running maximum after the first half. -/
theorem pay12_apply : k0_pay12 v13 v35 (ix2 r (0 : Fin 1)) = max (v13 (ix2 r 0)) (v35 (ix2 r 0)) := rfl

/-- The first rescaling factor. -/
theorem pay13_apply :
    k0_pay13 v13 v35 (ix2 r (0 : Fin 1)) = Ideal.exp (v13 (ix2 r 0) - max (v13 (ix2 r 0)) (v35 (ix2 r 0))) := rfl

/-- The first half's weights. -/
theorem pay14_apply (j : Fin 1024) :
    k0_pay14 v13 v33 v35 (ix2 r j) = Ideal.exp (v33 (ix2 r j) - max (v13 (ix2 r 0)) (v35 (ix2 r 0))) := by
  unfold k0_pay14
  show Ideal.exp (v33 (ix2 r j) - broadcastTo S1024x1024 (k0_pay12 v13 v35) broadcasts_S1024x1_S1024x1024 (ix2 r j)) = _
  rw [broadcastTo_a1_ab_apply]
  rfl

/-- The running maximum after the second half. -/
theorem pay16_apply :
    k0_pay16 v12 v13 v19 v35 v51 (ix2 r (0 : Fin 1))
      = max (max (v13 (ix2 r 0)) (v35 (ix2 r 0)))
          ((Finset.univ : Finset (Fin 1024)).fold max ⊥ (fun j => k0_pay15 v12 v19 v51 (ix2 r j))) := by
  unfold k0_pay16
  show max (k0_pay12 v13 v35 (ix2 r 0)) (shapeCast S1024x1 _ shapeCasts_S1024_S1024x1 (ix2 r 0)) = _
  rw [shapeCast_a_a1_apply, rowMax_apply]
  rfl

/-- The second rescaling factor. -/
theorem pay17_apply :
    k0_pay17 v12 v13 v19 v35 v51 (ix2 r (0 : Fin 1))
      = Ideal.exp (max (v13 (ix2 r 0)) (v35 (ix2 r 0)) - k0_pay16 v12 v13 v19 v35 v51 (ix2 r 0)) := rfl

/-- The second half's weights. -/
theorem pay18_apply (j : Fin 1024) :
    k0_pay18 v12 v13 v19 v35 v51 (ix2 r j)
      = Ideal.exp (k0_pay15 v12 v19 v51 (ix2 r j) - k0_pay16 v12 v13 v19 v35 v51 (ix2 r 0)) := by
  unfold k0_pay18
  show Ideal.exp (k0_pay15 v12 v19 v51 (ix2 r j)
    - broadcastTo S1024x1024 (k0_pay16 v12 v13 v19 v35 v51) broadcasts_S1024x1_S1024x1024 (ix2 r j)) = _
  rw [broadcastTo_a1_ab_apply]

/-- The running total after both halves. -/
theorem pay19_apply :
    k0_pay19 v12 v13 v14 v19 v33 v35 v51 (ix2 r (0 : Fin 1))
      = k0_pay17 v12 v13 v19 v35 v51 (ix2 r 0)
          * (k0_pay13 v13 v35 (ix2 r 0) * v14 (ix2 r 0) + ∑ j : Fin 1024, k0_pay14 v13 v33 v35 (ix2 r j))
        + ∑ j : Fin 1024, k0_pay18 v12 v13 v19 v35 v51 (ix2 r j) := by
  unfold k0_pay19
  simp only [addf_apply, mulf_apply, shapeCast_a_a1_apply]
  rw [rowSum_apply, rowSum_apply]

/-- The running weighted sum after both halves, at column `h`. -/
theorem pay20_apply (h : Fin 128) :
    k0_pay20 v12 v13 v15 v19 v21 v33 v35 v51 v52 (ix2 r h)
      = k0_pay17 v12 v13 v19 v35 v51 (ix2 r 0)
          * (k0_pay13 v13 v35 (ix2 r 0) * v15 (ix2 r h) + ∑ j : Fin 1024, k0_pay14 v13 v33 v35 (ix2 r j) * v21 (ix2 j h))
        + ∑ j : Fin 1024, k0_pay18 v12 v13 v19 v35 v51 (ix2 r j) * v52 (ix2 j h) := by
  unfold k0_pay20
  simp only [addf_apply, mulf_apply, broadcastTo_a1_ab_apply, matmul_row_apply, truncf_apply]

/-- The stored entry: the weighted sum times the reciprocal of the total. -/
theorem pay1_apply (v76 : FVec Ideal S1024x1 .f32) (v81 : FVec Ideal S1024x128 .f32) (c : Ideal .f32) (h : Fin 128) :
    k0_pay1 v76 v81 c (ix3 (0 : Fin 1) r h) = v81 (ix2 r h) * Ideal.div c (v76 (ix2 r 0)) := by
  unfold k0_pay1
  simp only [shapeCast_ab_1ab_apply, mulf_apply, broadcastTo_a1_ab_apply, divf_apply, broadcast_apply]

end Rows

/-- The two halves put together, for any scores: from a running maximum `⊥`, total `0` and weighted sum `0`, with
    the first half's scores `S0` (and their row maximum) and the second half's `S1`, the stored entry is the
    two-half row of the specification. -/
theorem twoHalves (v12 : FVec Ideal S1024x128 .bf16) (v13 v14 v35 : FVec Ideal S1024x1 .f32) (v15 : FVec Ideal S1024x128 .f32)
    (v19 : IVec S1024x1 32) (v21 v51 v52 : FVec Ideal S1024x128 .bf16) (v33 : FVec Ideal S1024x1024 .f32) (r : Fin 1024)
    (h : Fin 128) (S0 S1 : Fin 1024 → EReal)
    (h13 : v13 (ix2 r (0 : Fin 1)) = ⊥) (h14 : v14 (ix2 r (0 : Fin 1)) = 0) (h15 : v15 (ix2 r h) = 0)
    (h33 : ∀ j, v33 (ix2 r j) = S0 j) (h35 : v35 (ix2 r (0 : Fin 1)) = (Finset.univ : Finset (Fin 1024)).fold max ⊥ S0)
    (h64 : ∀ j, k0_pay15 v12 v19 v51 (ix2 r j) = S1 j) :
    k0_pay1 (k0_pay19 v12 v13 v14 v19 v33 v35 v51) (k0_pay20 v12 v13 v15 v19 v21 v33 v35 v51 v52)
        (Scalar.ofBits .f32 0x3F800000#32) (ix3 (0 : Fin 1) r h)
      = kerRow S0 S1 (fun j => v21 (ix2 j h)) (fun j => v52 (ix2 j h)) := by
  have one : (Scalar.ofBits (F := Ideal) .f32 0x3F800000#32 : Ideal .f32) = (1 : EReal) := ofBits_one
  rw [pay1_apply, pay19_apply, pay20_apply, one]
  simp only [pay17_apply, pay18_apply, pay16_apply, pay13_apply, pay14_apply, h13, h14, h15, h33, h35, h64]
  rfl

/-- Entry `(r, h)` of the stored block is the kernel's two-half row: the scores of query row `r` against the key
    rows of each half, scaled, and masked where the key's position (`j`, `1024 + j`) is after the query's
    (`1024 · i 1 + r`), against column `h` of the value rows. -/
theorem body_apply (i : grid0.Coords) (v6 : Vec Ideal S1x1024x1024 .f32) (v9 : Vec Ideal S1024x128 .f32)
    (v20 v21 v51 v52 : Vec Ideal S1024x128 .bf16) (r : Fin 1024) (h : Fin 128) :
    body (F := Ideal) i v6 v9 v20 v21 v51 v52 (ix3 (0 : Fin 1) r h) =
      kerRow
        (fun j : Fin 1024 => if j.val ≤ (i 1).val * 1024 + r.val then
          (∑ e : Fin 128, (∑ d : Fin 1024, v6 (ix3 (0 : Fin 1) r d) * v9 (ix2 d e)) * v20 (ix2 j e)) * scale else ⊥)
        (fun j : Fin 1024 => if 1024 + j.val ≤ (i 1).val * 1024 + r.val then
          (∑ e : Fin 128, (∑ d : Fin 1024, v6 (ix3 (0 : Fin 1) r d) * v9 (ix2 d e)) * v51 (ix2 j e)) * scale else ⊥)
        (fun j : Fin 1024 => v21 (ix2 j h)) (fun j : Fin 1024 => v52 (ix2 j h)) := by
  have hi : (i 1).val < 2 := (i 1).isLt
  have hr := r.isLt
  unfold body
  refine twoHalves (v12 := k0_pay5 (F := Ideal) v6 v9) (v13 := k0_pay6 (F := Ideal)) (v14 := k0_pay7 (F := Ideal))
    (v35 := k0_pay11 (F := Ideal) i v6 v9 v20) (v15 := k0_pay8 (F := Ideal)) (v19 := k0_pay9 i) (v21 := v21) (v51 := v51)
    (v52 := v52) (v33 := k0_pay10 (F := Ideal) i v6 v9 v20) (r := r) (h := h) (S0 := _) (S1 := _) ?_ ?_ ?_ ?_ ?_ ?_
  · exact ofBits_negInf
  · exact Ideal.ofBits_zero_f32
  · exact Ideal.ofBits_zero_f32
  · exact fun j => pay10_apply i v6 v9 v20 r j
  · rw [pay11_apply]
    exact congrArg (fun f => (Finset.univ : Finset (Fin 1024)).fold max ⊥ f) (funext fun j => pay10_apply i v6 v9 v20 r j)
  · intro j
    rw [pay15_apply _ _ _ r j _ (pay9_toNat i r 0) (by omega)]
    simp only [pay5_apply]

/-- The projected keys the body leaves in its first scratch: row `s` of the batch's `x` against column `e` of the
    key weights. -/
theorem kproj_apply (v89 : Vec Ideal S1x2048x1024 .f32) (v92 : Vec Ideal S1024x128 .f32) (s : Fin 2048) (e : Fin 128) :
    k0_pay3 (F := Ideal) v89 v92 (ix2 s e) = ∑ d : Fin 1024, v89 (ix3 (0 : Fin 1) s d) * v92 (ix2 d e) := by
  unfold k0_pay3 k0_pay2
  simp only [shapeCast_self, truncf_apply, matmul_proj_apply, shapeCast_1ab_ab_apply]

/-- The projected values it leaves in its second scratch, likewise. -/
theorem vproj_apply (v89 : Vec Ideal S1x2048x1024 .f32) (v94 : Vec Ideal S1024x128 .f32) (s : Fin 2048) (e : Fin 128) :
    k0_pay4 (F := Ideal) v89 v94 (ix2 s e) = ∑ d : Fin 1024, v89 (ix3 (0 : Fin 1) s d) * v94 (ix2 d e) := by
  unfold k0_pay4 k0_pay2
  simp only [shapeCast_self, truncf_apply, matmul_proj_apply, shapeCast_1ab_ab_apply]

end Cert.KernelIdeal.BodyValue

end
-- ==== Proof.RowLaw.lean ====
/-
  The two ways of computing one row of softmax attention agree.
-/
import proofs.«427894_j58394375356490_3_alg».proof.Proof.Spec

noncomputable section

open scoped BigOperators

namespace Cert.Attn

namespace RowLaw

/-- The largest score (taken from `⊥`) does not depend on how the keys are named. -/
theorem fold_max_equiv {ι κ : Type} [Fintype ι] [Fintype κ] (e : κ ≃ ι) (S : ι → EReal) :
    Finset.univ.fold max ⊥ (fun k => S (e k)) = Finset.univ.fold max ⊥ S := by
  rw [← Finset.map_univ_equiv e, Finset.fold_map]
  rfl

/-- The weight of a score `x` against a real shift `μ`, as a real number: `0` at `⊥`, `exp (x - μ)` at a real. -/
def wt (x : EReal) (μ : ℝ) : ℝ := if x = ⊥ then 0 else Real.exp (x.toReal - μ)

/-- On a score that is `⊥` or a real, the exponential of the shifted score is the real weight. -/
theorem exp_sub_coe {x : EReal} (hx : x = ⊥ ∨ ∃ r : ℝ, x = (r : EReal)) (μ : ℝ) :
    Idealize.ShloMosaic.Ideal.exp (x - (μ : EReal)) = ((wt x μ : ℝ) : EReal) := by
  rcases hx with rfl | ⟨r, rfl⟩
  · rw [EReal.bot_sub, Idealize.ShloMosaic.Ideal.exp_bot, wt, if_pos rfl, EReal.coe_zero]
  · rw [← EReal.coe_sub, Idealize.ShloMosaic.Ideal.exp_coe, wt, if_neg (EReal.coe_ne_bot r),
      EReal.toReal_coe]

/-- Moving the shift from `μ` to `μ'` multiplies every weight by `exp (μ - μ')`. -/
theorem exp_mul_wt (x : EReal) (μ μ' : ℝ) : Real.exp (μ - μ') * wt x μ = wt x μ' := by
  unfold wt
  split_ifs
  · rw [mul_zero]
  · rw [← Real.exp_add]
    congr 1
    ring

/-- Weights are nonnegative. -/
theorem wt_nonneg (x : EReal) (μ : ℝ) : 0 ≤ wt x μ := by
  unfold wt
  split_ifs
  · exact le_rfl
  · exact (Real.exp_pos _).le

/-- The weight of a real score is positive. -/
theorem wt_pos_coe (r μ : ℝ) : 0 < wt (r : EReal) μ := by
  rw [wt, if_neg (EReal.coe_ne_bot r)]
  exact Real.exp_pos _

/-- A row with one real score has a positive total weight. -/
theorem sum_wt_pos {ι : Type} [Fintype ι] (S : ι → EReal) (μ : ℝ) {j0 : ι} {r0 : ℝ}
    (h : S j0 = (r0 : EReal)) : 0 < ∑ j, wt (S j) μ :=
  Finset.sum_pos' (fun j _ => wt_nonneg _ _) ⟨j0, Finset.mem_univ _, by rw [h]; exact wt_pos_coe _ _⟩

/-- The coercion of a finite sum of reals is the sum of the coercions. -/
theorem coe_sum {ι : Type} (s : Finset ι) (f : ι → ℝ) :
    ((∑ j ∈ s, f j : ℝ) : EReal) = ∑ j ∈ s, (f j : EReal) := by
  classical
  induction s using Finset.induction_on with
  | empty => rw [Finset.sum_empty, Finset.sum_empty, EReal.coe_zero]
  | insert a s ha ih => rw [Finset.sum_insert ha, Finset.sum_insert ha, EReal.coe_add, ih]

/-- An extended real strictly between `⊥` and `⊤` is a real. -/
theorem exists_coe_of_lt {x : EReal} (h1 : ⊥ < x) (h2 : x < ⊤) : ∃ r : ℝ, x = (r : EReal) :=
  ⟨x.toReal, (EReal.coe_toReal h2.ne h1.ne').symm⟩

/-- A score that is `⊥` or a real is below `⊤`. -/
theorem lt_top_of_score {x : EReal} (hx : x = ⊥ ∨ ∃ r : ℝ, x = (r : EReal)) : x < ⊤ := by
  rcases hx with rfl | ⟨r, rfl⟩
  · exact bot_lt_top
  · exact EReal.coe_lt_top r

end RowLaw

/-- The reference's row does not depend on how the keys are named. -/
theorem refRow_equiv {ι κ : Type} [Fintype ι] [Fintype κ] (e : κ ≃ ι) (S V : ι → EReal) :
    refRow (fun k => S (e k)) (fun k => V (e k)) = refRow S V := by
  unfold refRow
  rw [RowLaw.fold_max_equiv e S,
    Equiv.sum_comp e
      (fun j' => Idealize.ShloMosaic.Ideal.exp (S j' - max ⊥ (Finset.univ.fold max ⊥ S)))]
  exact Equiv.sum_comp e (fun j =>
    Idealize.ShloMosaic.Ideal.div
      (Idealize.ShloMosaic.Ideal.exp (S j - max ⊥ (Finset.univ.fold max ⊥ S)))
      (0 + ∑ j', Idealize.ShloMosaic.Ideal.exp (S j' - max ⊥ (Finset.univ.fold max ⊥ S))) * V j)

/-- Over scores that are reals or `⊥` (the first half holding at least one real) and real values, the kernel's
    two-half row is the reference's row over all the keys. -/
theorem kerRow_eq_refRow {ι : Type} [Fintype ι] (S0 S1 V0 V1 : ι → EReal)
    (hS0 : ∀ j, S0 j = ⊥ ∨ ∃ r : ℝ, S0 j = (r : EReal)) (hS1 : ∀ j, S1 j = ⊥ ∨ ∃ r : ℝ, S1 j = (r : EReal))
    (hV0 : ∀ j, ∃ r : ℝ, V0 j = (r : EReal)) (hV1 : ∀ j, ∃ r : ℝ, V1 j = (r : EReal))
    (hne : ∃ j, ∃ r : ℝ, S0 j = (r : EReal)) :
    kerRow S0 S1 V0 V1 = refRow (Sum.elim S0 S1) (Sum.elim V0 V1) := by
  classical
  choose v0 hv0 using hV0
  choose v1 hv1 using hV1
  obtain ⟨j0, r0, hj0⟩ := hne
  have hS : ∀ x : ι ⊕ ι, Sum.elim S0 S1 x = ⊥ ∨ ∃ r : ℝ, Sum.elim S0 S1 x = (r : EReal) := by
    rintro (j | j)
    · exact hS0 j
    · exact hS1 j
  -- the three maxima are reals
  obtain ⟨μ0, hμ0⟩ : ∃ μ0 : ℝ, max ⊥ (Finset.univ.fold max ⊥ S0) = (μ0 : EReal) := by
    apply RowLaw.exists_coe_of_lt
    · refine lt_max_iff.2 (Or.inr ((Finset.lt_fold_max _).2 (Or.inr ⟨j0, Finset.mem_univ _, ?_⟩)))
      rw [hj0]
      exact EReal.bot_lt_coe r0
    · exact max_lt bot_lt_top
        ((Finset.fold_max_lt _).2 ⟨bot_lt_top, fun j _ => RowLaw.lt_top_of_score (hS0 j)⟩)
  obtain ⟨μ1, hμ1⟩ : ∃ μ1 : ℝ, max (μ0 : EReal) (Finset.univ.fold max ⊥ S1) = (μ1 : EReal) := by
    apply RowLaw.exists_coe_of_lt
    · exact lt_max_iff.2 (Or.inl (EReal.bot_lt_coe μ0))
    · exact max_lt (EReal.coe_lt_top μ0)
        ((Finset.fold_max_lt _).2 ⟨bot_lt_top, fun j _ => RowLaw.lt_top_of_score (hS1 j)⟩)
  obtain ⟨M, hM⟩ : ∃ M : ℝ, max ⊥ (Finset.univ.fold max ⊥ (Sum.elim S0 S1)) = (M : EReal) := by
    apply RowLaw.exists_coe_of_lt
    · refine lt_max_iff.2 (Or.inr ((Finset.lt_fold_max _).2 (Or.inr ⟨Sum.inl j0, Finset.mem_univ _, ?_⟩)))
      rw [Sum.elim_inl, hj0]
      exact EReal.bot_lt_coe r0
    · exact max_lt bot_lt_top
        ((Finset.fold_max_lt _).2 ⟨bot_lt_top, fun x _ => RowLaw.lt_top_of_score (hS x)⟩)
  -- every exponential in sight is the coercion of a real
  have e00 : ∀ j, Idealize.ShloMosaic.Ideal.exp (S0 j - (μ0 : EReal)) =
      ((RowLaw.wt (S0 j) μ0 : ℝ) : EReal) :=
    fun j => RowLaw.exp_sub_coe (hS0 j) μ0
  have e11 : ∀ j, Idealize.ShloMosaic.Ideal.exp (S1 j - (μ1 : EReal)) =
      ((RowLaw.wt (S1 j) μ1 : ℝ) : EReal) :=
    fun j => RowLaw.exp_sub_coe (hS1 j) μ1
  have e0M : ∀ j, Idealize.ShloMosaic.Ideal.exp (S0 j - (M : EReal)) =
      ((RowLaw.wt (S0 j) M : ℝ) : EReal) :=
    fun j => RowLaw.exp_sub_coe (hS0 j) M
  have e1M : ∀ j, Idealize.ShloMosaic.Ideal.exp (S1 j - (M : EReal)) =
      ((RowLaw.wt (S1 j) M : ℝ) : EReal) :=
    fun j => RowLaw.exp_sub_coe (hS1 j) M
  have a0 : Idealize.ShloMosaic.Ideal.exp (⊥ - (μ0 : EReal)) = 0 := by
    rw [EReal.bot_sub, Idealize.ShloMosaic.Ideal.exp_bot]
  have a1 : Idealize.ShloMosaic.Ideal.exp ((μ0 : EReal) - (μ1 : EReal)) =
      ((Real.exp (μ0 - μ1) : ℝ) : EReal) := by
    rw [← EReal.coe_sub, Idealize.ShloMosaic.Ideal.exp_coe]
  -- the first half's totals, moved to the second shift
  have hA : Real.exp (μ0 - μ1) * ∑ j, RowLaw.wt (S0 j) μ0 = ∑ j, RowLaw.wt (S0 j) μ1 := by
    rw [Finset.mul_sum]
    exact Finset.sum_congr rfl fun j _ => RowLaw.exp_mul_wt _ _ _
  have hB : Real.exp (μ0 - μ1) * ∑ j, RowLaw.wt (S0 j) μ0 * v0 j = ∑ j, RowLaw.wt (S0 j) μ1 * v0 j := by
    rw [Finset.mul_sum]
    exact Finset.sum_congr rfl fun j _ => by rw [← mul_assoc, RowLaw.exp_mul_wt]
  have hW : (∑ j, RowLaw.wt (S0 j) μ1 + ∑ j, RowLaw.wt (S1 j) μ1) ≠ 0 :=
    (add_pos_of_pos_of_nonneg (RowLaw.sum_wt_pos S0 μ1 hj0)
      (Finset.sum_nonneg fun j _ => RowLaw.wt_nonneg _ _)).ne'
  have hL : (∑ j, RowLaw.wt (S0 j) M + ∑ j, RowLaw.wt (S1 j) M) ≠ 0 :=
    (add_pos_of_pos_of_nonneg (RowLaw.sum_wt_pos S0 M hj0)
      (Finset.sum_nonneg fun j _ => RowLaw.wt_nonneg _ _)).ne'
  simp only [kerRow, refRow, hμ0, hμ1, hM, Fintype.sum_sum_type, Sum.elim_inl, Sum.elim_inr, e00, e11,
    e0M, e1M, a0, a1, hv0, hv1, zero_mul, zero_add]
  simp only [← EReal.coe_mul, ← RowLaw.coe_sum, ← EReal.coe_add]
  rw [hA, hB]
  simp only [Idealize.ShloMosaic.Ideal.div_coe hW, Idealize.ShloMosaic.Ideal.div_coe hL, one_mul,
    ← EReal.coe_mul, ← RowLaw.coe_sum, ← EReal.coe_add]
  congr 1
  -- in the reals: the reference's weights are the kernel's, all scaled by the one positive factor
  have hκ : Real.exp (μ1 - M) ≠ 0 := (Real.exp_pos _).ne'
  have hκ0 : ∀ j, RowLaw.wt (S0 j) M = Real.exp (μ1 - M) * RowLaw.wt (S0 j) μ1 := fun j => (RowLaw.exp_mul_wt _ μ1 M).symm
  have hκ1 : ∀ j, RowLaw.wt (S1 j) M = Real.exp (μ1 - M) * RowLaw.wt (S1 j) μ1 := fun j => (RowLaw.exp_mul_wt _ μ1 M).symm
  have h0 : ∑ j, Real.exp (μ1 - M) * RowLaw.wt (S0 j) μ1 = Real.exp (μ1 - M) * ∑ j, RowLaw.wt (S0 j) μ1 :=
    (Finset.mul_sum _ _ _).symm
  have h1 : ∑ j, Real.exp (μ1 - M) * RowLaw.wt (S1 j) μ1 = Real.exp (μ1 - M) * ∑ j, RowLaw.wt (S1 j) μ1 :=
    (Finset.mul_sum _ _ _).symm
  have key : ∀ a b : ℝ, Real.exp (μ1 - M) * a *
      (1 / (Real.exp (μ1 - M) * (∑ j, RowLaw.wt (S0 j) μ1 + ∑ j, RowLaw.wt (S1 j) μ1))) * b =
      a * b * (1 / (∑ j, RowLaw.wt (S0 j) μ1 + ∑ j, RowLaw.wt (S1 j) μ1)) := by
    intro a b
    field_simp
  simp only [hκ0, hκ1]
  rw [h0, h1, ← mul_add]
  simp only [key]
  rw [← Finset.sum_mul, ← Finset.sum_mul, ← add_mul]

end Cert.Attn

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.SpecReal.lean ====
/-
  Over real inputs the projections and the scores are reals: sums of products of reals, times a finite constant.
  A masked score is then a real or `⊥`, and a real where the key is not after the query.
-/
import proofs.«427894_j58394375356490_3_alg».proof.Proof.Spec
import proofs.«427894_j58394375356490_3_alg».proof.Proof.LibReal

noncomputable section

open scoped BigOperators

namespace Cert.Attn

open Idealize.ShloMosaic Idealize.ShloMosaic.ValueIdx Cert.LibReal

theorem isReal_mul {a b : EReal} (ha : IsReal a) (hb : IsReal b) : IsReal (a * b) := by
  obtain ⟨r, rfl⟩ := ha; obtain ⟨s, rfl⟩ := hb; exact ⟨r * s, (EReal.coe_mul r s).symm⟩

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The scale is a finite f32 pattern: a real. -/
theorem isReal_scale : IsReal scale := by
  unfold scale
  have h : Ideal.ofBits .f32 0x3DB504F3#32 ≠ ⊥ ∧ Ideal.ofBits .f32 0x3DB504F3#32 ≠ ⊤ := by
    constructor <;> simp [Ideal.ofBits, Ideal.ieee] <;> rw [← EReal.coe_mul]
    · exact EReal.coe_ne_bot _
    · exact EReal.coe_ne_top _
  induction hx : Ideal.ofBits .f32 0x3DB504F3#32 using EReal.rec with
  | bot => exact absurd hx h.1
  | top => exact absurd hx h.2
  | coe r => exact ⟨r, rfl⟩

variable (x : (⟨3, ![8, 2048, 1024]⟩ : Shape).Idx → EReal) (wq wk wv : (⟨2, ![1024, 128]⟩ : Shape).Idx → EReal)

theorem isReal_proj (w : (⟨2, ![1024, 128]⟩ : Shape).Idx → EReal) (hx : ∀ i, IsReal (x i)) (hw : ∀ i, IsReal (w i))
    (b : Fin 8) (t : Fin 2048) (h : Fin 128) : IsReal (proj x w b t h) :=
  isReal_sum _ _ fun d => isReal_mul (hx _) (hw _)

theorem isReal_qk (hx : ∀ i, IsReal (x i)) (hq : ∀ i, IsReal (wq i)) (hk : ∀ i, IsReal (wk i))
    (b : Fin 8) (t s : Fin 2048) : IsReal (qk x wq wk b t s) :=
  isReal_sum _ _ fun e => isReal_mul (isReal_proj x wq hx hq b t e) (isReal_proj x wk hx hk b s e)

theorem mscore_of_le (hx : ∀ i, IsReal (x i)) (hq : ∀ i, IsReal (wq i)) (hk : ∀ i, IsReal (wk i))
    (b : Fin 8) (t s : Fin 2048) (h : s.val ≤ t.val) : ∃ r : ℝ, mscore x wq wk b t s = (r : EReal) := by
  unfold mscore; rw [if_pos h]; exact isReal_mul (isReal_qk x wq wk hx hq hk b t s) isReal_scale

theorem mscore_real_or_bot (hx : ∀ i, IsReal (x i)) (hq : ∀ i, IsReal (wq i)) (hk : ∀ i, IsReal (wk i))
    (b : Fin 8) (t s : Fin 2048) : mscore x wq wk b t s = ⊥ ∨ ∃ r : ℝ, mscore x wq wk b t s = (r : EReal) := by
  by_cases h : s.val ≤ t.val
  · exact Or.inr (mscore_of_le x wq wk hx hq hk b t s h)
  · left; unfold mscore; rw [if_neg h]

end Cert.Attn

end
-- ==== Proof.KerValue.lean ====
/-
  The kernel's result array is `attn` of its four arguments.

  Grid point `t` is batch `t / 2`, query tile `t % 2`. Its `x` block is the batch's whole slab, its weight blocks the
  whole matrices, its output block rows `[1024·(t % 2), 1024·(t % 2) + 1024)` of the batch's result. After any point
  the two scratch arrays hold the batch's projected keys and values (a first tile has just written them, a second
  finds what the first left), so the block a point stores is, entry by entry, the two-half softmax row of the
  masked scores of its queries against all the batch's keys; over real inputs that is the reference's row. The
  sixteen output blocks tile the result array.
-/
import proofs.«427894_j58394375356490_3_alg».proof.Proof.Pieces
import proofs.«427894_j58394375356490_3_alg».proof.Proof.BodyRead
import proofs.«427894_j58394375356490_3_alg».proof.Proof.RowLaw
import proofs.«427894_j58394375356490_3_alg».proof.Proof.SpecReal
import proofs.«427894_j58394375356490_3_alg».proof.Proof.Gen.KernelIdeal.Value
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.BodyValue Cert.KernelIdeal.Pieces Cert.Attn Cert.LibReal

variable (m : (ℓ : Loc nD τ sig) → Buf (Elt Ideal) ℓ) (ρ : Dev nD → PrngReg)

/-- The four argument arrays as the region finds them, and the four input blocks of a point, at their literal types. -/
abbrev xarr (c : Dev nD) : Vec Ideal S8x2048x1024 .f32 := V m c main_arg0
abbrev wqarr (c : Dev nD) : Vec Ideal S1024x128 .f32 := V m c main_arg1
abbrev wkarr (c : Dev nD) : Vec Ideal S1024x128 .f32 := V m c main_arg2
abbrev wvarr (c : Dev nD) : Vec Ideal S1024x128 .f32 := V m c main_arg3
abbrev xblk (c : Dev nD) (t : Fin cfg0.N) : Vec Ideal S1x2048x1024 .f32 := iblk m c 0 t
abbrev wqblk (c : Dev nD) (t : Fin cfg0.N) : Vec Ideal S1024x128 .f32 := iblk m c 1 t
abbrev wkblk (c : Dev nD) (t : Fin cfg0.N) : Vec Ideal S1024x128 .f32 := iblk m c 2 t
abbrev wvblk (c : Dev nD) (t : Fin cfg0.N) : Vec Ideal S1024x128 .f32 := iblk m c 3 t

/-- The printed index maps, decided over the sixteen points: `x`'s block index is the batch, the weights' is zero,
    the output's is (batch, tile, 0); the body's tile coordinate is `t % 2`. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = t.val % 2 ∧ win0_4.index t (2 : Fin 3) = 0
    ∧ ((grid0.coords t) 1).val = t.val % 2 :=
  (by decide +kernel : ∀ t : Fin grid0.N, _)

/-! ## The input blocks read at an index -/

theorem xblk_apply (c : Dev nD) (t : Fin cfg0.N) (b : Fin 8) (hb : b.val = t.val / 2) (s : Fin 2048) (d : Fin 1024) :
    xblk m c t (ix3 (0 : Fin 1) s d) = xarr m c (ix3 b s d) := by
  obtain ⟨e0, e1, e2, -⟩ := idx_facts t
  show V m c main_arg0 (((cfg0.win 0).blk t).view.emb (ix3 (0 : Fin 1) s d)) = V m c main_arg0 (ix3 b s d)
  congr 1
  funext a; apply Fin.ext
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 1024 + 1 * d.val = d.val; omega

theorem wqblk_apply (c : Dev nD) (t : Fin cfg0.N) (d : Fin 1024) (e : Fin 128) :
    wqblk m c t (ix2 d e) = wqarr m c (ix2 d e) := by
  obtain ⟨-, -, -, e0, e1, -⟩ := idx_facts t
  show V m c main_arg1 (((cfg0.win 1).blk t).view.emb (ix2 d e)) = V m c main_arg1 (ix2 d e)
  congr 1
  funext a; apply Fin.ext
  match a with
  | ⟨0, _⟩ => show win0_1.index t (0 : Fin 2) * 1024 + 1 * d.val = d.val; omega
  | ⟨1, _⟩ => show win0_1.index t (1 : Fin 2) * 128 + 1 * e.val = e.val; omega

theorem wkblk_apply (c : Dev nD) (t : Fin cfg0.N) (d : Fin 1024) (e : Fin 128) :
    wkblk m c t (ix2 d e) = wkarr m c (ix2 d e) := by
  obtain ⟨-, -, -, -, -, e0, e1, -⟩ := idx_facts t
  show V m c main_arg2 (((cfg0.win 2).blk t).view.emb (ix2 d e)) = V m c main_arg2 (ix2 d e)
  congr 1
  funext a; apply Fin.ext
  match a with
  | ⟨0, _⟩ => show win0_2.index t (0 : Fin 2) * 1024 + 1 * d.val = d.val; omega
  | ⟨1, _⟩ => show win0_2.index t (1 : Fin 2) * 128 + 1 * e.val = e.val; omega

theorem wvblk_apply (c : Dev nD) (t : Fin cfg0.N) (d : Fin 1024) (e : Fin 128) :
    wvblk m c t (ix2 d e) = wvarr m c (ix2 d e) := by
  obtain ⟨-, -, -, -, -, -, -, e0, e1, -⟩ := idx_facts t
  show V m c main_arg3 (((cfg0.win 3).blk t).view.emb (ix2 d e)) = V m c main_arg3 (ix2 d e)
  congr 1
  funext a; apply Fin.ext
  match a with
  | ⟨0, _⟩ => show win0_3.index t (0 : Fin 2) * 1024 + 1 * d.val = d.val; omega
  | ⟨1, _⟩ => show win0_3.index t (1 : Fin 2) * 128 + 1 * e.val = e.val; omega

/-! ## The scratch arrays after a point: the batch's projected keys and values -/

theorem kscr_even (c : Dev nD) (t : Fin cfg0.N) (h0 : t.val % 2 = 0) (b : Fin 8) (hb : b.val = t.val / 2)
    (s : Fin 2048) (e : Fin 128) :
    (outsAt0 m c t.val t.isLt).2.1 (ix2 s e) = proj (xarr m c) (wkarr m c) b s e := by
  rw [outsAt0_A m c t h0]
  dsimp only
  rw [sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
  refine (kproj_apply (xblk m c t) (wkblk m c t) s e).trans ?_
  unfold proj
  exact Finset.sum_congr rfl fun d _ => congrArg₂ (· * ·) (xblk_apply m c t b hb s d) (wkblk_apply m c t d e)

theorem vscr_even (c : Dev nD) (t : Fin cfg0.N) (h0 : t.val % 2 = 0) (b : Fin 8) (hb : b.val = t.val / 2)
    (s : Fin 2048) (e : Fin 128) :
    (outsAt0 m c t.val t.isLt).2.2 (ix2 s e) = proj (xarr m c) (wvarr m c) b s e := by
  rw [outsAt0_A m c t h0]
  dsimp only
  rw [sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
  refine (vproj_apply (xblk m c t) (wvblk m c t) s e).trans ?_
  unfold proj
  exact Finset.sum_congr rfl fun d _ => congrArg₂ (· * ·) (xblk_apply m c t b hb s d) (wvblk_apply m c t d e)

theorem kscr_apply (c : Dev nD) (t : Fin cfg0.N) (b : Fin 8) (hb : b.val = t.val / 2) (s : Fin 2048) (e : Fin 128) :
    (outsAt0 m c t.val t.isLt).2.1 (ix2 s e) = proj (xarr m c) (wkarr m c) b s e := by
  by_cases h0 : t.val % 2 = 0
  · exact kscr_even m c t h0 b hb s e
  · rw [outsAt0_B m c t h0]
    dsimp only
    unfold sout0_B_0
    exact kscr_even m c ⟨t.val - 1, by have := t.isLt; omega⟩ (by show (t.val - 1) % 2 = 0; omega) b
      (by show b.val = (t.val - 1) / 2; omega) s e

theorem vscr_apply (c : Dev nD) (t : Fin cfg0.N) (b : Fin 8) (hb : b.val = t.val / 2) (s : Fin 2048) (e : Fin 128) :
    (outsAt0 m c t.val t.isLt).2.2 (ix2 s e) = proj (xarr m c) (wvarr m c) b s e := by
  by_cases h0 : t.val % 2 = 0
  · exact vscr_even m c t h0 b hb s e
  · rw [outsAt0_B m c t h0]
    dsimp only
    unfold sout0_B_1
    exact vscr_even m c ⟨t.val - 1, by have := t.isLt; omega⟩ (by show (t.val - 1) % 2 = 0; omega) b
      (by show b.val = (t.val - 1) / 2; omega) s e

/-! ## The block a point stores -/

/-- At every point: `body` of the point's query rows, the query weights and the halves of the scratch arrays as
    they are after the point. -/
theorem out_eq (c : Dev nD) (t : Fin cfg0.N) :
    (outsAt0 m c t.val t.isLt).1
      = body (grid0.coords t) (qrows (grid0.coords t) (xblk m c t)) (wqblk m c t)
          (half0 (outsAt0 m c t.val t.isLt).2.1) (half0 (outsAt0 m c t.val t.isLt).2.2)
          (half1 (outsAt0 m c t.val t.isLt).2.1) (half1 (outsAt0 m c t.val t.isLt).2.2) := by
  by_cases h0 : t.val % 2 = 0
  · rw [outsAt0_A m c t h0]
    dsimp only
    rw [out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
      sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
      sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
  · rw [outsAt0_B m c t h0]
    dsimp only
    rw [out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
    unfold sout0_B_0 sout0_B_1
    rfl

/-- The two halves of the 2048 key positions. -/
def lo (j : Fin 1024) : Fin 2048 := ⟨j.val, by omega⟩
def hi (j : Fin 1024) : Fin 2048 := ⟨1024 + j.val, by omega⟩

/-- Every key position is in exactly one half. -/
def keyEquiv : Fin 1024 ⊕ Fin 1024 ≃ Fin 2048 where
  toFun := Sum.elim lo hi
  invFun s := if h : s.val < 1024 then Sum.inl ⟨s.val, h⟩ else Sum.inr ⟨s.val - 1024, by omega⟩
  left_inv k := by
    rcases k with j | j
    · have : j.val < 1024 := j.isLt
      simp [lo, this]
    · have : ¬ (1024 + j.val < 1024) := by omega
      simp [hi, this]
  right_inv s := by
    by_cases h : s.val < 1024
    · simp [h, lo]
    · simp [h, hi]; apply Fin.ext; show 1024 + (s.val - 1024) = s.val; omega

/-- THE BRIDGE, one entry of one block: with the scratch halves holding the batch's projected keys and values,
    entry `(r, h)` of what point `t` stores is entry `(t / 2, 1024·(t % 2) + r, h)` of `attn`. -/
theorem body_attn (c : Dev nD) (t : Fin cfg0.N) (b : Fin 8) (hb : b.val = t.val / 2)
    (KS VS : Vec Ideal S2048x128 .bf16)
    (hK : ∀ s e, KS (ix2 s e) = proj (xarr m c) (wkarr m c) b s e)
    (hV : ∀ s e, VS (ix2 s e) = proj (xarr m c) (wvarr m c) b s e)
    (hx : ∀ i, IsReal (xarr m c i)) (hq : ∀ i, IsReal (wqarr m c i)) (hk : ∀ i, IsReal (wkarr m c i))
    (hv : ∀ i, IsReal (wvarr m c i))
    (r : Fin 1024) (h : Fin 128) (tq : Fin 2048) (htq : tq.val = (t.val % 2) * 1024 + r.val) :
    body (F := Ideal) (grid0.coords t) (qrows (grid0.coords t) (xblk m c t)) (wqblk m c t) (half0 KS) (half0 VS) (half1 KS) (half1 VS)
        (ix3 (0 : Fin 1) r h)
      = attn (xarr m c) (wqarr m c) (wkarr m c) (wvarr m c) (ix3 b tq h) := by
  obtain ⟨-, -, -, -, -, -, -, -, -, -, -, -, ei⟩ := idx_facts t
  refine (body_apply (grid0.coords t) (qrows (grid0.coords t) (xblk m c t)) (wqblk m c t) (half0 KS) (half0 VS) (half1 KS) (half1 VS) r h).trans ?_
  -- the query row of the block is row `tq` of the batch
  have hrow : ∀ d : Fin 1024, qrows (grid0.coords t) (xblk m c t) (ix3 (0 : Fin 1) r d) = xarr m c (ix3 b tq d) := fun d => by
    have e1 : (Rect.unit (s := S1x2048x1024) (k0_off1 (grid0.coords t)) S1x1024x1024.size (Facts₀.k0_off1_inb (grid0.coords t))).idx (ix3 (0 : Fin 1) r d)
        = ix3 (0 : Fin 1) tq d := by
      funext a; apply Fin.ext
      match a with
      | ⟨0, _⟩ => show k0_off1 (grid0.coords t) 0 + 1 * 0 = 0; rw [k0_off1_eq]; rfl
      | ⟨1, _⟩ => show k0_off1 (grid0.coords t) 1 + 1 * r.val = tq.val; rw [k0_off1_eq]; show 1024 * ((grid0.coords t) 1).val + 1 * r.val = tq.val; omega
      | ⟨2, _⟩ => show k0_off1 (grid0.coords t) 2 + 1 * d.val = d.val; rw [k0_off1_eq]; show 0 + 1 * d.val = d.val; omega
    show xblk m c t ((Rect.unit (s := S1x2048x1024) (k0_off1 (grid0.coords t)) S1x1024x1024.size (Facts₀.k0_off1_inb (grid0.coords t))).idx (ix3 (0 : Fin 1) r d)) = _
    rw [e1]
    exact xblk_apply m c t b hb tq d
  have hqp : ∀ e : Fin 128, (∑ d : Fin 1024, qrows (grid0.coords t) (xblk m c t) (ix3 (0 : Fin 1) r d) * wqblk m c t (ix2 d e))
      = proj (xarr m c) (wqarr m c) b tq e := fun e => by
    unfold proj
    exact Finset.sum_congr rfl fun d _ => congrArg₂ (· * ·) (hrow d) (wqblk_apply m c t d e)
  have hh0 : ∀ (X : Vec Ideal S2048x128 .bf16) (j : Fin 1024) (e : Fin 128), half0 X (ix2 j e) = X (ix2 (lo j) e) := fun X j e => by
    show X _ = X _
    congr 1
    funext a; apply Fin.ext
    match a with
    | ⟨0, _⟩ => show 0 + 1 * j.val = j.val; omega
    | ⟨1, _⟩ => show 0 + 1 * e.val = e.val; omega
  have hh1 : ∀ (X : Vec Ideal S2048x128 .bf16) (j : Fin 1024) (e : Fin 128), half1 X (ix2 j e) = X (ix2 (hi j) e) := fun X j e => by
    show X _ = X _
    congr 1
    funext a; apply Fin.ext
    match a with
    | ⟨0, _⟩ => show 1024 + 1 * j.val = 1024 + j.val; omega
    | ⟨1, _⟩ => show 0 + 1 * e.val = e.val; omega
  have key : ∀ (A0 A1 B0 B1 S0 S1 V0 V1 : Fin 1024 → EReal), A0 = S0 → A1 = S1 → B0 = V0 → B1 = V1 →
      kerRow A0 A1 B0 B1 = kerRow S0 S1 V0 V1 := by intros; subst_vars; rfl
  refine (key _ _ _ _
    (fun j => mscore (xarr m c) (wqarr m c) (wkarr m c) b tq (lo j))
    (fun j => mscore (xarr m c) (wqarr m c) (wkarr m c) b tq (hi j))
    (fun j => proj (xarr m c) (wvarr m c) b (lo j) h)
    (fun j => proj (xarr m c) (wvarr m c) b (hi j) h)
    (funext fun j => ?_) (funext fun j => ?_) (funext fun j => ?_) (funext fun j => ?_)).trans ?_
  · unfold mscore qk
    refine if_congr (by show _ ↔ j.val ≤ tq.val; omega) ?_ rfl
    refine congrArg (· * scale) (Finset.sum_congr rfl fun e _ => ?_)
    exact congrArg₂ (· * ·) (hqp e) ((hh0 KS j e).trans (hK (lo j) e))
  · unfold mscore qk
    refine if_congr (by show _ ↔ 1024 + j.val ≤ tq.val; omega) ?_ rfl
    refine congrArg (· * scale) (Finset.sum_congr rfl fun e _ => ?_)
    exact congrArg₂ (· * ·) (hqp e) ((hh1 KS j e).trans (hK (hi j) e))
  · exact (hh0 VS j h).trans (hV (lo j) h)
  · exact (hh1 VS j h).trans (hV (hi j) h)
  · rw [kerRow_eq_refRow _ _ _ _
      (fun j => mscore_real_or_bot _ _ _ hx hq hk b tq (lo j))
      (fun j => mscore_real_or_bot _ _ _ hx hq hk b tq (hi j))
      (fun j => isReal_proj _ _ hx hv b (lo j) h)
      (fun j => isReal_proj _ _ hx hv b (hi j) h)
      ⟨⟨0, by omega⟩, mscore_of_le _ _ _ hx hq hk b tq (lo ⟨0, by omega⟩) (Nat.zero_le _)⟩]
    unfold attn
    show _ = refRow (fun s : Fin 2048 => mscore (xarr m c) (wqarr m c) (wkarr m c) b tq s) (fun s : Fin 2048 => proj (xarr m c) (wvarr m c) b s h)
    rw [← refRow_equiv keyEquiv (fun s : Fin 2048 => mscore (xarr m c) (wqarr m c) (wkarr m c) b tq s) (fun s : Fin 2048 => proj (xarr m c) (wvarr m c) b s h)]
    congr 1 <;> (funext k; rcases k with j | j <;> rfl)

/-! ## From blocks to the array -/

/-- What point `t` writes back is block `t` of `attn` of the argument arrays. -/
theorem flushed_eq (c : Dev nD)
    (hx : ∀ i, IsReal (xarr m c i)) (hq : ∀ i, IsReal (wqarr m c i)) (hk : ∀ i, IsReal (wkarr m c i))
    (hv : ∀ i, IsReal (wvarr m c i)) (t : Fin cfg0.N) :
    (dats m 0 c).flushed 4 t
      = ((cfg0.win 4).blk t).view.read (Elt Ideal) (attn (xarr m c) (wqarr m c) (wkarr m c) (wvarr m c)) := by
  rw [Cert.KernelIdeal.Value.flushed4]
  obtain ⟨-, -, -, -, -, -, -, -, -, e40, e41, e42, ei⟩ := idx_facts t
  have hN : cfg0.N = 16 := N_0
  have hb : t.val / 2 < 8 := by have := t.isLt; omega
  funext j
  have hj : j = ix3 (0 : Fin 1) (j 1) (j 2) := by
    funext a; match a with
    | ⟨0, _⟩ => exact Fin.ext (Nat.lt_one_iff.mp (j 0).isLt)
    | ⟨1, _⟩ => rfl
    | ⟨2, _⟩ => rfl
  have htq : (t.val % 2) * 1024 + (j 1).val < 2048 := by have : (j 1).val < 1024 := (j 1).isLt; omega
  rw [hj]
  show (outsAt0 m c t.val t.isLt).1 (ix3 (0 : Fin 1) (j 1) (j 2))
    = attn (xarr m c) (wqarr m c) (wkarr m c) (wvarr m c) (((cfg0.win 4).blk t).view.emb (ix3 (0 : Fin 1) (j 1) (j 2)))
  rw [show ((cfg0.win 4).blk t).view.emb (ix3 (0 : Fin 1) (j 1) (j 2))
      = ix3 (⟨t.val / 2, hb⟩ : Fin 8) (⟨(t.val % 2) * 1024 + (j 1).val, htq⟩ : Fin 2048) (j 2) from
    funext fun a => Fin.ext (by
      match a with
      | ⟨0, _⟩ => show win0_4.index t (0 : Fin 3) * 1 + 1 * 0 = t.val / 2; omega
      | ⟨1, _⟩ => show win0_4.index t (1 : Fin 3) * 1024 + 1 * (j 1).val = (t.val % 2) * 1024 + (j 1).val; omega
      | ⟨2, _⟩ => show win0_4.index t (2 : Fin 3) * 128 + 1 * (j 2).val = (j 2).val; omega)]
  rw [out_eq m c t]
  exact body_attn m c t ⟨t.val / 2, hb⟩ rfl _ _ (kscr_apply m c t ⟨t.val / 2, hb⟩ rfl) (vscr_apply m c t ⟨t.val / 2, hb⟩ rfl)
    hx hq hk hv (j 1) (j 2) _ rfl

/-- An index of the result array is in point `t`'s block iff each coordinate is in the block's range on its axis. -/
theorem mem_blk4 (t : Fin cfg0.N) (i : S8x2048x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v0).slice (win0_4.rect t)).set ↔ _
  rw [View.set_slice_whole, Rect.mem_set_unit]
  exact Iff.rfl

/-- Every index of the result array is in some point's block: batch `i 0`, tile `i 1 / 1024`. -/
theorem cover (i : S8x2048x128.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 128 := (i 2).isLt
  have hN : cfg0.N = 16 := N_0
  have ht : 2 * (i 0).val + (i 1).val / 1024 < cfg0.N := by omega
  refine ⟨⟨2 * (i 0).val + (i 1).val / 1024, ht⟩, flush0_4 _, ?_⟩
  obtain ⟨-, -, -, -, -, -, -, -, -, e40, e41, e42, -⟩ := idx_facts ⟨2 * (i 0).val + (i 1).val / 1024, ht⟩
  have e40' : win0_4.index ⟨2 * (i 0).val + (i 1).val / 1024, ht⟩ (0 : Fin 3) = (2 * (i 0).val + (i 1).val / 1024) / 2 := e40
  have e41' : win0_4.index ⟨2 * (i 0).val + (i 1).val / 1024, ht⟩ (1 : Fin 3) = (2 * (i 0).val + (i 1).val / 1024) % 2 := e41
  rw [mem_blk4]
  intro a
  match a with
  | ⟨0, _⟩ =>
    show win0_4.index ⟨2 * (i 0).val + (i 1).val / 1024, ht⟩ (0 : Fin 3) * 1 ≤ (i 0).val
      ∧ (i 0).val < win0_4.index ⟨2 * (i 0).val + (i 1).val / 1024, ht⟩ (0 : Fin 3) * 1 + 1
    omega
  | ⟨1, _⟩ =>
    show win0_4.index ⟨2 * (i 0).val + (i 1).val / 1024, ht⟩ (1 : Fin 3) * 1024 ≤ (i 1).val
      ∧ (i 1).val < win0_4.index ⟨2 * (i 0).val + (i 1).val / 1024, ht⟩ (1 : Fin 3) * 1024 + 1024
    omega
  | ⟨2, _⟩ =>
    show win0_4.index ⟨2 * (i 0).val + (i 1).val / 1024, ht⟩ (2 : Fin 3) * 128 ≤ (i 2).val
      ∧ (i 2).val < win0_4.index ⟨2 * (i 0).val + (i 1).val / 1024, ht⟩ (2 : Fin 3) * 128 + 128
    omega

/-- The result array after the run. -/
theorem final (c : Dev nD)
    (hx : ∀ i, IsReal (xarr m c i)) (hq : ∀ i, IsReal (wqarr m c i)) (hk : ∀ i, IsReal (wkarr m c i))
    (hv : ∀ i, IsReal (wvarr m c i)) :
    (dats m 0 c).arrAt 4 cfg0.N = attn (xarr m c) (wqarr m c) (wkarr m c) (wvarr m c) :=
  (dats m 0 c).arrAt_eq_of_cover 4 (attn (xarr m c) (wqarr m c) (wkarr m c) (wvarr m c))
    (fun t _ => flushed_eq m c hx hq hk hv t) cover

/-- The kernel's run over real inputs: the result array at `attn` of the arguments, the arguments unchanged. -/
theorem run
    (hx : ∀ c i, IsReal (xarr m c i)) (hq : ∀ c i, IsReal (wqarr m c i)) (hk : ∀ c i, IsReal (wkarr m c i))
    (hv : ∀ c i, IsReal (wvarr m c i)) :
    θ_run defs (onTc (τ := τ) (main (F := Ideal))) ⟨m, fun _ => 0, ρ⟩ fun r => ∀ c : Dev nD,
      r.2.mem ((c : Thread nD τ).loc main_v0) = attn (xarr m c) (wqarr m c) (wkarr m c) (wvarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hx c) (hq c) (hk c) (hv c)), (h c).2⟩)
    (Cert.KernelIdeal.Value.run_blocks m ρ)

end Cert.KernelIdeal.KerValue

end
-- ==== Proof.RefRead.lean ====
/-
  The reference program's result, entry by entry, is the specification `Cert.Attn.attn`.
-/
import proofs.«427894_j58394375356490_3_alg».proof.Proof.Spec
import proofs.«427894_j58394375356490_3_alg».proof.Proof.Gen.ReferenceIdeal.Read
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-! ## Words -/

/-- The pattern `0xFF800000` is the extended real `⊥`. -/
theorem ofBits_negInf : Ideal.ofBits .f32 0xFF800000#32 = (⊥ : EReal) := by
  simp [Ideal.ofBits, Ideal.ieee]

/-- For positions below 2048 the signed comparison `t + 0 ≥ s` of their 32-bit words is the bit of `s ≤ t`. -/
theorem mask_bit (t s : Fin 2048) :
    IntOp.cmpi .sge (IntOp.addi (BitVec.ofNat 32 t.val) 0#32) (BitVec.ofNat 32 s.val)
      = if s.val ≤ t.val then 1#1 else 0#1 := by
  have ht : (BitVec.ofNat 32 t.val).toNat = t.val := by
    rw [BitVec.toNat_ofNat]; exact Nat.mod_eq_of_lt (by have := t.isLt; omega)
  have hs : (BitVec.ofNat 32 s.val).toNat = s.val := by
    rw [BitVec.toNat_ofNat]; exact Nat.mod_eq_of_lt (by have := s.isLt; omega)
  have h0 : IntOp.addi (BitVec.ofNat 32 t.val) 0#32 = BitVec.ofNat 32 t.val := by
    show BitVec.ofNat 32 t.val + 0#32 = _
    exact BitVec.add_zero _
  rw [h0]
  have key := StableHlo.Predicate.sge_iff_toNat (a := BitVec.ofNat 32 t.val) (b := BitVec.ofNat 32 s.val)
    (by rw [ht]; have := t.isLt; omega) (by rw [hs]; have := s.isLt; omega)
  rw [ht, hs] at key
  by_cases h : s.val ≤ t.val
  · rw [if_pos h]; exact key.2 h
  · rw [if_neg h]; exact eq_zero_of_ne_one fun e => h (key.1 e)

/-! ## The projections and the scores -/

section Stages

variable (x0 : (⟨S8x2048x1024, .f32⟩ : BufTy).Contents (Elt Ideal)) (x1 x2 x3 : (⟨S1024x128, .f32⟩ : BufTy).Contents (Elt Ideal))

/-- The first product is `x · Wq`: entry `(b, t, e)` is row `(b, t)` of `x` against column `e`. -/
theorem v0_at (b : Fin 8) (t : Fin 2048) (e : Fin 128) :
    val_main_v0 (F := Ideal) x0 x1 (ix3 b t e) = proj x0 x1 b t e := by
  rw [val_main_v0_apply]
  unfold proj
  refine Finset.sum_congr rfl fun d _ => ?_
  have el : lidx_main_v0 (ix3 b t e) d = ix3 b t d :=
    funext fun a => Fin.ext (by match a with | ⟨0, _⟩ => rfl | ⟨1, _⟩ => rfl | ⟨2, _⟩ => rfl)
  have er : ridx_main_v0 (ix3 b t e) d = ix2 d e :=
    funext fun a => Fin.ext (by match a with | ⟨0, _⟩ => rfl | ⟨1, _⟩ => rfl)
  rw [el, er]

/-- The second product is `x · Wk`. -/
theorem v1_at (b : Fin 8) (t : Fin 2048) (e : Fin 128) :
    val_main_v1 (F := Ideal) x0 x2 (ix3 b t e) = proj x0 x2 b t e := by
  rw [val_main_v1_apply]
  unfold proj
  refine Finset.sum_congr rfl fun d _ => ?_
  have el : lidx_main_v1 (ix3 b t e) d = ix3 b t d :=
    funext fun a => Fin.ext (by match a with | ⟨0, _⟩ => rfl | ⟨1, _⟩ => rfl | ⟨2, _⟩ => rfl)
  have er : ridx_main_v1 (ix3 b t e) d = ix2 d e :=
    funext fun a => Fin.ext (by match a with | ⟨0, _⟩ => rfl | ⟨1, _⟩ => rfl)
  rw [el, er]

/-- The third product is `x · Wv`. -/
theorem v2_at (b : Fin 8) (t : Fin 2048) (e : Fin 128) :
    val_main_v2 (F := Ideal) x0 x3 (ix3 b t e) = proj x0 x3 b t e := by
  rw [val_main_v2_apply]
  unfold proj
  refine Finset.sum_congr rfl fun d _ => ?_
  have el : lidx_main_v2 (ix3 b t e) d = ix3 b t d :=
    funext fun a => Fin.ext (by match a with | ⟨0, _⟩ => rfl | ⟨1, _⟩ => rfl | ⟨2, _⟩ => rfl)
  have er : ridx_main_v2 (ix3 b t e) d = ix2 d e :=
    funext fun a => Fin.ext (by match a with | ⟨0, _⟩ => rfl | ⟨1, _⟩ => rfl)
  rw [el, er]

/-- The score of query `t` against key `s`: the two projected rows contracted over the head dimension. -/
theorem v3_at (b : Fin 8) (t s : Fin 2048) :
    val_main_v3 (F := Ideal) x0 x1 x2 (ix3 b t s) = qk x0 x1 x2 b t s := by
  rw [val_main_v3_apply]
  unfold qk
  refine Finset.sum_congr rfl fun e _ => ?_
  have el : lidx_main_v3 (ix3 b t s) e = ix3 b t e :=
    funext fun a => Fin.ext (by match a with | ⟨0, _⟩ => rfl | ⟨1, _⟩ => rfl | ⟨2, _⟩ => rfl)
  have er : ridx_main_v3 (ix3 b t s) e = ix3 b s e :=
    funext fun a => Fin.ext (by match a with | ⟨0, _⟩ => rfl | ⟨1, _⟩ => rfl | ⟨2, _⟩ => rfl)
  rw [el, er, v0_at, v1_at]

/-- The scaled score. -/
theorem v5_at (b : Fin 8) (t s : Fin 2048) :
    val_main_v5 (F := Ideal) x0 x1 x2 (ix3 b t s) = qk x0 x1 x2 b t s * scale := by
  rw [val_main_v5_apply, val_main_v4_apply, val_main_cst_apply, v3_at]
  rfl

/-- The lower-triangular mask: the bit at `(t, s)` says the key `s` is not after the query `t`. -/
theorem v7_at (t s : Fin 2048) :
    val_main_v7 (F := Ideal) (ix2 t s) = if s.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  rw [mask_bit]
  by_cases h : s.val ≤ t.val
  · rw [if_pos h, select_one]
  · rw [if_neg h, select_zero]

/-- The masked score: the scaled score where the mask's bit is set, `⊥` elsewhere. -/
theorem v8_at (b : Fin 8) (t s : Fin 2048) :
    val_main_v8 (F := Ideal) x0 x1 x2 (ix3 b t s) = mscore x0 x1 x2 b t s := by
  rw [val_main_v8_apply, val_main_call1_v1_apply, val_main_call1_v2_apply, val_main_call1_v0_apply,
    val_main_cst_0_apply, v5_at]
  have ei : idx_main_call1_v1 (ix3 b t s) = ix2 t s :=
    funext fun a => Fin.ext (by match a with | ⟨0, _⟩ => rfl | ⟨1, _⟩ => rfl)
  rw [ei, v7_at]
  unfold mscore
  by_cases h : s.val ≤ t.val
  · rw [if_pos h, if_pos h, select_one]
  · rw [if_neg h, if_neg h, select_zero]
    exact ofBits_negInf

/-! ## The row's maximum, weights and total -/

/-- A maximum taken from `⊥` along the last axis, read at row `(b, t)`: the fold of `max` over the key positions. -/
theorem hostMax_row (y : (⟨S8x2048x2048, .f32⟩ : BufTy).Contents (Elt Ideal)) (b : Fin 8) (t : Fin 2048) :
    Host.reduce (FloatOps.maximumf (F := Ideal) (φ := .f32)) y (val_main_cst_1 (F := Ideal)) reducesTo_S8x2048x2048_S8x2048_d2 h_S_ (ix2 b t)
      = Finset.univ.fold max ⊥ (fun s : Fin 2048 => y (ix3 b t s)) := by
  have h : S8x2048x2048.Reduces [2] S8x2048 := by decide
  rw [Host.reduce_eq_fold_single (FloatOps.maximumf (F := Ideal) (φ := .f32)) y _ reducesTo_S8x2048x2048_S8x2048_d2 h h_S_,
    val_main_cst_1_apply]
  have hf : (y ∘ h.lift (ix2 b t)) = fun s : Fin 2048 => y (ix3 b t s) :=
    funext fun s => congrArg y (funext fun a => Fin.ext (by
      match a with | ⟨0, _⟩ => rfl | ⟨1, _⟩ => rfl | ⟨2, _⟩ => rfl))
  refine (congrArg (fun f => Finset.fold max (Ideal.ofBits .f32 0xFF800000#32) f (Finset.univ : Finset (Fin 2048))) hf).trans ?_
  rw [ofBits_negInf]

/-- The shift the reference subtracts in row `(b, t)`: the largest masked score, taken from `⊥` twice. -/
def refRowMax (b : Fin 8) (t : Fin 2048) : EReal :=
  max ⊥ (Finset.univ.fold max ⊥ fun s : Fin 2048 => mscore x0 x1 x2 b t s)

/-- The total of row `(b, t)`'s weights, summed from `0`. -/
def refRowSum (b : Fin 8) (t : Fin 2048) : EReal :=
  0 + ∑ s : Fin 2048, Ideal.exp (mscore x0 x1 x2 b t s - refRowMax x0 x1 x2 b t)

/-- The max-reduce over the keys. -/
theorem v9_at (b : Fin 8) (t : Fin 2048) :
    val_main_v9 (F := Ideal) x0 x1 x2 (ix2 b t) = Finset.univ.fold max ⊥ (fun s : Fin 2048 => mscore x0 x1 x2 b t s) := by
  unfold val_main_v9
  rw [hostMax_row]
  exact congrArg (fun f => Finset.fold max ⊥ f (Finset.univ : Finset (Fin 2048))) (funext fun s => v8_at x0 x1 x2 b t s)

/-- The second maximum with `⊥`. -/
theorem v11_at (b : Fin 8) (t : Fin 2048) :
    val_main_v11 (F := Ideal) x0 x1 x2 (ix2 b t) = refRowMax x0 x1 x2 b t := by
  rw [val_main_v11_apply, val_main_v10_apply, val_main_cst_2_apply, v9_at]
  show max (Ideal.ofBits .f32 0xFF800000#32) _ = _
  rw [ofBits_negInf]
  rfl

/-- The row's maximum laid along the keys. -/
theorem v13_at (b : Fin 8) (t s : Fin 2048) :
    val_main_v13 (F := Ideal) x0 x1 x2 (ix3 b t s) = refRowMax x0 x1 x2 b t := by
  rw [val_main_v13_apply, val_main_v12_apply]
  have ei : idx_main_v12 (idx_main_v13 (ix3 b t s)) = ix2 b t :=
    funext fun a => Fin.ext (by match a with | ⟨0, _⟩ => rfl | ⟨1, _⟩ => rfl)
  rw [ei, v11_at]

/-- The shifted score. -/
theorem v14_at (b : Fin 8) (t s : Fin 2048) :
    val_main_v14 (F := Ideal) x0 x1 x2 (ix3 b t s) = mscore x0 x1 x2 b t s - refRowMax x0 x1 x2 b t := by
  rw [val_main_v14_apply, v8_at, v13_at]
  rfl

/-- The weight of key `s` in row `(b, t)`. -/
theorem v15_at (b : Fin 8) (t s : Fin 2048) :
    val_main_v15 (F := Ideal) x0 x1 x2 (ix3 b t s) = Ideal.exp (mscore x0 x1 x2 b t s - refRowMax x0 x1 x2 b t) := by
  rw [val_main_v15_apply, v14_at]
  rfl

/-- The row's total. -/
theorem v16_at (b : Fin 8) (t : Fin 2048) :
    val_main_v16 (F := Ideal) x0 x1 x2 (ix2 b t) = refRowSum x0 x1 x2 b t := by
  rw [val_main_v16_apply, val_main_cst_3_apply]
  show Ideal.ofBits .f32 0x00000000#32 + _ = _
  rw [Ideal.ofBits_zero_f32]
  unfold refRowSum
  refine congrArg (0 + ·) (Finset.sum_congr rfl fun s _ => ?_)
  have ei : idx_main_v16 (ix2 b t) s = ix3 b t s :=
    funext fun a => Fin.ext (by match a with | ⟨0, _⟩ => rfl | ⟨1, _⟩ => rfl | ⟨2, _⟩ => rfl)
  rw [ei, v15_at]

/-- The row's total laid along the keys. -/
theorem v18_at (b : Fin 8) (t s : Fin 2048) :
    val_main_v18 (F := Ideal) x0 x1 x2 (ix3 b t s) = refRowSum x0 x1 x2 b t := by
  rw [val_main_v18_apply, val_main_v17_apply]
  have ei : idx_main_v17 (idx_main_v18 (ix3 b t s)) = ix2 b t :=
    funext fun a => Fin.ext (by match a with | ⟨0, _⟩ => rfl | ⟨1, _⟩ => rfl)
  rw [ei, v16_at]

/-- The normalized weight. -/
theorem v19_at (b : Fin 8) (t s : Fin 2048) :
    val_main_v19 (F := Ideal) x0 x1 x2 (ix3 b t s)
      = Ideal.div (Ideal.exp (mscore x0 x1 x2 b t s - refRowMax x0 x1 x2 b t)) (refRowSum x0 x1 x2 b t) := by
  rw [val_main_v19_apply, v15_at, v18_at]
  rfl

/-! ## The result -/

/-- Entry `(b, t, h)` of the reference's last stage is the reference's row of the masked scores against column `h` of
    the projected values. -/
theorem ref_at (b : Fin 8) (t : Fin 2048) (h : Fin 128) :
    val_main_v20 (F := Ideal) x0 x1 x2 x3 (ix3 b t h) = attn x0 x1 x2 x3 (ix3 b t h) := by
  rw [val_main_v20_apply]
  show _ = refRow (fun s : Fin 2048 => mscore x0 x1 x2 b t s) (fun s : Fin 2048 => proj x0 x3 b s h)
  unfold refRow
  refine Finset.sum_congr rfl fun k _ => ?_
  have el : lidx_main_v20 (ix3 b t h) k = ix3 b t k :=
    funext fun a => Fin.ext (by match a with | ⟨0, _⟩ => rfl | ⟨1, _⟩ => rfl | ⟨2, _⟩ => rfl)
  have er : ridx_main_v20 (ix3 b t h) k = ix3 b k h :=
    funext fun a => Fin.ext (by match a with | ⟨0, _⟩ => rfl | ⟨1, _⟩ => rfl | ⟨2, _⟩ => rfl)
  rw [el, er, v19_at, v2_at]
  rfl

end Stages

/-- The reference's last stage, read at the ideal instance, is `attn` of the four arguments. -/
theorem ref_eq_attn (x0 : (⟨S8x2048x1024, .f32⟩ : BufTy).Contents (Elt Ideal)) (x1 x2 x3 : (⟨S1024x128, .f32⟩ : BufTy).Contents (Elt Ideal)) :
    val_main_v20 (F := Ideal) x0 x1 x2 x3 = attn x0 x1 x2 x3 := by
  funext i
  obtain ⟨b, t, h, rfl⟩ : ∃ (b : Fin 8) (t : Fin 2048) (h : Fin 128), i = ix3 b t h := ⟨i 0, i 1, i 2, eq_ix3 i⟩
  exact ref_at x0 x1 x2 x3 b t h

end Cert.ReferenceIdeal.RefValue

end
-- ==== Proof.Finite.lean ====
/-
  The precondition read back: where "every input is finite" evaluates to 1, every entry of the four argument arrays
  is a real number. The predicate is the conjunction of four tests, one per array, each an and-reduce over the
  whole array of |entry| < +∞.
-/
import proofs.«427894_j58394375356490_3_alg».proof.Pre_finite_inputs
import proofs.«427894_j58394375356490_3_alg».proof.Proof.Gen.Pre_finite_inputs
import proofs.«427894_j58394375356490_3_alg».proof.Proof.LibReal

noncomputable section

namespace Cert.Finite

open Idealize.ShloMosaic Idealize.ShloMosaic.ValueIdx Cert.LibReal Cert.Pre_finite_inputs

theorem reals_of_pre (x0 : FVec Ideal S8x2048x1024 .f32) (x1 x2 x3 : FVec Ideal S1024x128 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx0, hx1⟩ := IntOp.andi_eq_one.1 h01
  exact ⟨isReal_of_all x0 _ _ _ hx0, isReal_of_all x1 _ _ _ hx1, isReal_of_all x2 _ _ _ h2, isReal_of_all x3 _ _ _ h3⟩

end Cert.Finite

end
-- ==== Proof.lean ====
/-
  Causal single-head attention with fused projections: a kernel that walks the keys in two halves with a running
  maximum, total and weighted sum (and keeps the projected keys and values of a batch between its two query tiles)
  against the reference that masks, takes the softmax of each row of scores and multiplies by the values.

  At the ideal instance both results are, entry by entry, the average of the value rows over the keys not after
  the query, weighted by `exp (score - M)`: the weights do not depend on the shift `M` once they are normalized,
  `exp (M₀ - M₁) · exp (s - M₀) = exp (s - M₁)` for a real score `s` and both sides are `0` for a masked one, and
  dividing each weight by the total before the weighted sum or the weighted sum by the total after it is the same
  over the reals (`Cert.Attn.kerRow_eq_refRow`). The finiteness precondition is what makes every projection, score,
  running maximum and total a real, and the total positive: each query sees at least its own position.
  The kernel's masked fill is a finite stand-in the idealization names `⊥`; the reference fills with `-∞` itself.
-/
import proofs.«427894_j58394375356490_3_alg».proof.Defs
import proofs.«427894_j58394375356490_3_alg».proof.Proof.Gen.Kernel
import proofs.«427894_j58394375356490_3_alg».proof.Proof.Gen.Kernel.Skeleton
import proofs.«427894_j58394375356490_3_alg».proof.Proof.Gen.Kernel.Launch
import proofs.«427894_j58394375356490_3_alg».proof.Proof.Gen.Kernel.Points
import proofs.«427894_j58394375356490_3_alg».proof.Proof.Gen.Kernel.Frame
import proofs.«427894_j58394375356490_3_alg».proof.Proof.Gen.KernelIdeal
import proofs.«427894_j58394375356490_3_alg».proof.Proof.Gen.KernelIdeal.Skeleton
import proofs.«427894_j58394375356490_3_alg».proof.Proof.Gen.KernelIdeal.Launch
import proofs.«427894_j58394375356490_3_alg».proof.Proof.Gen.KernelIdeal.Points
import proofs.«427894_j58394375356490_3_alg».proof.Proof.Gen.KernelIdeal.Frame
import proofs.«427894_j58394375356490_3_alg».proof.Proof.Gen.ReferenceIdeal
import proofs.«427894_j58394375356490_3_alg».proof.Proof.Gen.Pre_finite_inputs
import proofs.«427894_j58394375356490_3_alg».proof.Proof.Gen.KernelIdeal.Value
import proofs.«427894_j58394375356490_3_alg».proof.Proof.Gen.ReferenceIdeal.Run
import proofs.«427894_j58394375356490_3_alg».proof.Proof.Gen.ReferenceIdeal.Read
import proofs.«427894_j58394375356490_3_alg».proof.Proof.KerValue
import proofs.«427894_j58394375356490_3_alg».proof.Proof.RefRead
import proofs.«427894_j58394375356490_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two masked fills of the kernel are the named constant, which the table reads as `⊥`. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end with `Cert.Attn.attn` of the (agreeing, real) arguments in their result arrays. -/
theorem algebraic : Cert.algebraic_KernelIdeal_ReferenceIdeal := by
  intro m ρ m' ρ' hpre hagree
  have hreal := fun c => Cert.Finite.reals_of_pre _ _ _ _ (hpre c)
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact Cert.KernelIdeal.KerValue.run m ρ (fun c => (hreal c).1) (fun c => (hreal c).2.1) (fun c => (hreal c).2.2.1)
      (fun c => (hreal c).2.2.2)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_eq_attn, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
